-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2x65536 : Shape := ⟨2, ![2, 65536]⟩
abbrev S2048x256 : Shape := ⟨2, ![2048, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S64x4 : Shape := ⟨2, ![64, 4]⟩
abbrev S4 : Shape := ⟨1, ![4]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S3 .f32) (main_arg13 : FVec F S64x4 .f32) (main_arg14 : FVec F S4 .f32) (main_v48 : IVec S_ 1) (main_v49 : FVec F S64x3 .f32) (main_v50 : FVec F S64x3 .f32) : IVec S_ 1 :=
  let main_v51 : IVec S64x3 1 := cmpf .olt main_v49 main_v50
  let main_c_19 : IVec S_ 1 := constantI S_ 1 1#1
  let main_v52 : IVec S_ 1 := (fun x v => Host.reduce IntOp.andi x v reducesTo_S64x3_S_d0_1 h_S_) main_v51 main_c_19
  let main_v53 : IVec S_ 1 := andi main_v48 main_v52
  let main_v54 : FVec F S3 .f32 := Host.absf main_arg12
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  let main_v59 : FVec F S64x4 .f32 := Host.absf main_arg13
  let main_cst_22 : FVec F S_ .f32 := constant S_ .f32 0x7F800000#32
  let main_v60 : FVec F S64x4 .f32 := broadcastInDim S64x4 ![] bcast_S_S64x4 main_cst_22
  let main_v61 : IVec S64x4 1 := cmpf .olt main_v59 main_v60
  let main_c_23 : IVec S_ 1 := constantI S_ 1 1#1
  let main_v62 : IVec S_ 1 := (fun x v => Host.reduce IntOp.andi x v reducesTo_S64x4_S_d0_1 h_S_) main_v61 main_c_23
  let main_v63 : IVec S_ 1 := andi main_v58 main_v62
  let main_v64 : FVec F S4 .f32 := Host.absf main_arg14
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg8 : FVec F S128x64 .f32) (main_arg9 : FVec F S64 .f32) (main_arg10 : FVec F S128x64 .f32) (main_arg11 : FVec F S64x3 .f32) (main_arg12 : FVec F S3 .f32) (main_arg13 : FVec F S64x4 .f32) (main_arg14 : FVec F S4 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64x3 .f32 := Host.absf main_arg11
  let main_cst_18 : FVec F S_ .f32 := constant S_ .f32 0x7F800000#32
  let main_v50 : FVec F S64x3 .f32 := broadcastInDim S64x3 ![] bcast_S_S64x3 main_cst_18
  fn_part3 (F := F) main_arg12 main_arg13 main_arg14 main_v48 main_v49 main_v50

def fn_part1 {F : FTy → Type} [FloatOps F] (main_arg5 : FVec F S256x128 .f32) (main_arg6 : FVec F S128 .f32) (main_arg7 : FVec F S256x128 .f32) (main_arg8 : FVec F S128x64 .f32) (main_arg9 : FVec F S64 .f32) (main_arg10 : FVec F S128x64 .f32) (main_arg11 : FVec F S64x3 .f32) (main_arg12 : FVec F S3 .f32) (main_arg13 : FVec F S64x4 .f32) (main_arg14 : FVec F S4 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S16384x2048 .f32) (main_arg1 : IVec S2x65536 32) (main_arg2 : FVec F S2048x256 .f32) (main_arg3 : FVec F S256 .f32) (main_arg4 : FVec F S2048x256 .f32) (main_arg5 : FVec F S256x128 .f32) (main_arg6 : FVec F S128 .f32) (main_arg7 : FVec F S256x128 .f32) (main_arg8 : FVec F S128x64 .f32) (main_arg9 : FVec F S64 .f32) (main_arg10 : FVec F S128x64 .f32) (main_arg11 : FVec F S64x3 .f32) (main_arg12 : FVec F S3 .f32) (main_arg13 : FVec F S64x4 .f32) (main_arg14 : FVec F S4 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x256 .f32 := Host.absf main_arg2
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2048x256 .f32 := Host.absf main_arg4
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg5 main_arg6 main_arg7 main_arg8 main_arg9 main_arg10 main_arg11 main_arg12 main_arg13 main_arg14 main_v13 main_v16
-- ==== Kernel.lean ====
abbrev S16384x2048 : Shape := ⟨2, ![16384, 2048]⟩
abbrev S2x65536 : Shape := ⟨2, ![2, 65536]⟩
abbrev S2048x256 : Shape := ⟨2, ![2048, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S64x4 : Shape := ⟨2, ![64, 4]⟩
abbrev S4 : Shape := ⟨1, ![4]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S65536x2048 : Shape := ⟨2, ![65536, 2048]⟩
abbrev S16384x256 : Shape := ⟨2, ![16384, 256]⟩
abbrev S512x2048 : Shape := ⟨2, ![512, 2048]⟩
abbrev S512x256 : Shape := ⟨2, ![512, 256]⟩
abbrev S1x256 : Shape := ⟨2, ![1, 256]⟩
abbrev S65536x256 : Shape := ⟨2, ![65536, 256]⟩
abbrev S16384x128 : Shape := ⟨2, ![16384, 128]⟩
abbrev S2048x128 : Shape := ⟨2, ![2048, 128]⟩
abbrev S1x128 : Shape := ⟨2, ![1, 128]⟩
abbrev S65536x128 : Shape := ⟨2, ![65536, 128]⟩
abbrev S16384x64 : Shape := ⟨2, ![16384, 64]⟩
abbrev S2048x64 : Shape := ⟨2, ![2048, 64]⟩
abbrev S1x64 : Shape := ⟨2, ![1, 64]⟩
abbrev S16384x3 : Shape := ⟨2, ![16384, 3]⟩
abbrev S16384x4 : Shape := ⟨2, ![16384, 4]⟩
abbrev S4096x64 : Shape := ⟨2, ![4096, 64]⟩
abbrev S4096x3 : Shape := ⟨2, ![4096, 3]⟩
abbrev S4096x4 : Shape := ⟨2, ![4096, 4]⟩
abbrev S1x3 : Shape := ⟨2, ![1, 3]⟩
abbrev S1x4 : Shape := ⟨2, ![1, 4]⟩
abbrev S4096 : Shape := ⟨1, ![4096]⟩
abbrev S4096x1 : Shape := ⟨2, ![4096, 1]⟩

abbrev nBuf : Space → Nat
  | .hbm => 63
  | .vmem => 37
  | .smem => 0
  | _ => 0

abbrev bufTy : (tb : Table) → Fin (tcTables nBuf tb) → BufTy
  | .hbm, ⟨0, _⟩ => ⟨S16384x2048, .f32⟩
  | .hbm, ⟨1, _⟩ => ⟨S2x65536, .i32⟩
  | .hbm, ⟨2, _⟩ => ⟨S2048x256, .f32⟩
  | .hbm, ⟨3, _⟩ => ⟨S256, .f32⟩
  | .hbm, ⟨4, _⟩ => ⟨S2048x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64x3, .f32⟩
  | .hbm, ⟨12, _⟩ => ⟨S3, .f32⟩
  | .hbm, ⟨13, _⟩ => ⟨S64x4, .f32⟩
  | .hbm, ⟨14, _⟩ => ⟨S4, .f32⟩
  | .hbm, ⟨15, _⟩ => ⟨S1x65536, .i32⟩
  | .hbm, ⟨16, _⟩ => ⟨S65536, .i32⟩
  | .hbm, ⟨17, _⟩ => ⟨S1x65536, .i32⟩
  | .hbm, ⟨18, _⟩ => ⟨S65536, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536x2048, .f32⟩
  | .hbm, ⟨28, _⟩ => ⟨S_, .f32⟩
  | .hbm, ⟨29, _⟩ => ⟨S16384x2048, .f32⟩
  | .hbm, ⟨30, _⟩ => ⟨S65536x1, .i32⟩
  | .hbm, ⟨31, _⟩ => ⟨S16384x2048, .f32⟩
  | .hbm, ⟨32, _⟩ => ⟨S16384x256, .f32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536x256, .f32⟩
  | .hbm, ⟨42, _⟩ => ⟨S_, .f32⟩
  | .hbm, ⟨43, _⟩ => ⟨S16384x256, .f32⟩
  | .hbm, ⟨44, _⟩ => ⟨S65536x1, .i32⟩
  | .hbm, ⟨45, _⟩ => ⟨S16384x256, .f32⟩
  | .hbm, ⟨46, _⟩ => ⟨S16384x128, .f32⟩
  | .hbm, ⟨47, _⟩ => ⟨S_, .i32⟩
  | .hbm, ⟨48, _⟩ => ⟨S65536, .i32⟩
  | .hbm, ⟨49, _⟩ => ⟨S65536, .i1⟩
  | .hbm, ⟨50, _⟩ => ⟨S_, .i32⟩
  | .hbm, ⟨51, _⟩ => ⟨S65536, .i32⟩
  | .hbm, ⟨52, _⟩ => ⟨S65536, .i32⟩
  | .hbm, ⟨53, _⟩ => ⟨S65536, .i32⟩
  | .hbm, ⟨54, _⟩ => ⟨S65536x1, .i32⟩
  | .hbm, ⟨55, _⟩ => ⟨S65536x128, .f32⟩
  | .hbm, ⟨56, _⟩ => ⟨S_, .f32⟩
  | .hbm, ⟨57, _⟩ => ⟨S16384x128, .f32⟩
  | .hbm, ⟨58, _⟩ => ⟨S65536x1, .i32⟩
  | .hbm, ⟨59, _⟩ => ⟨S16384x128, .f32⟩
  | .hbm, ⟨60, _⟩ => ⟨S16384x64, .f32⟩
  | .hbm, ⟨61, _⟩ => ⟨S16384x3, .f32⟩
  | .hbm, ⟨62, _⟩ => ⟨S16384x4, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x256, .f32⟩
  | .local _ .vmem, ⟨5, _⟩ => ⟨S256, .f32⟩
  | .local _ .vmem, ⟨6, _⟩ => ⟨S2048x256, .f32⟩
  | .local _ .vmem, ⟨7, _⟩ => ⟨S512x256, .f32⟩
  | .local _ .vmem, ⟨8, _⟩ => ⟨S512x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S256x128, .f32⟩
  | .local _ .vmem, ⟨14, _⟩ => ⟨S128, .f32⟩
  | .local _ .vmem, ⟨15, _⟩ => ⟨S256x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S128x64, .f32⟩
  | .local _ .vmem, ⟨23, _⟩ => ⟨S64, .f32⟩
  | .local _ .vmem, ⟨24, _⟩ => ⟨S128x64, .f32⟩
  | .local _ .vmem, ⟨25, _⟩ => ⟨S2048x64, .f32⟩
  | .local _ .vmem, ⟨26, _⟩ => ⟨S2048x64, .f32⟩
  | .local _ .vmem, ⟨27, _⟩ => ⟨S4096x64, .f32⟩
  | .local _ .vmem, ⟨28, _⟩ => ⟨S4096x64, .f32⟩
  | .local _ .vmem, ⟨29, _⟩ => ⟨S64x3, .f32⟩
  | .local _ .vmem, ⟨30, _⟩ => ⟨S3, .f32⟩
  | .local _ .vmem, ⟨31, _⟩ => ⟨S64x4, .f32⟩
  | .local _ .vmem, ⟨32, _⟩ => ⟨S4, .f32⟩
  | .local _ .vmem, ⟨33, _⟩ => ⟨S4096x3, .f32⟩
  | .local _ .vmem, ⟨34, _⟩ => ⟨S4096x3, .f32⟩
  | .local _ .vmem, ⟨35, _⟩ => ⟨S4096x4, .f32⟩
  | .local _ .vmem, ⟨36, _⟩ => ⟨S4096x4, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37_0 : Ref sig .tc := ⟨.hbm, 61, rfl⟩
abbrev main_v37_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem6_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4096x3 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S4096x4 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S_S16384x2048 : S_.BroadcastsInDim S16384x2048 (![] : Fin 0 → Fin S16384x2048.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  bcast_S_S16384x256 : S_.BroadcastsInDim S16384x256 (![] : Fin 0 → Fin S16384x256.rank)
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  bcast_S_S16384x128 : S_.BroadcastsInDim S16384x128 (![] : Fin 0 → Fin S16384x128.rank)
  shapeCasts_S2048x128_S2048x128 : S2048x128.ShapeCasts S2048x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x3_S64x3_0_0 : ∀ a, (![0, 0] : Fin 2 → Nat) a + S64x3.size a ≤ S64x3.size a
  h_S64x3 : 0 < S64x3.numel
  inb_S64x4_S64x4_0_0 : ∀ a, (![0, 0] : Fin 2 → Nat) a + S64x4.size a ≤ S64x4.size a
  h_S64x4 : 0 < S64x4.numel
  inb_S3_S3_0 : ∀ a, (![0] : Fin 1 → Nat) a + S3.size a ≤ S3.size a
  h_S3 : 0 < S3.numel
  shapeCasts_S3_S1x3 : S3.ShapeCasts S1x3
  broadcasts_S1x3_S4096x3 : S1x3.Broadcasts S4096x3
  inb_S4_S4_0 : ∀ a, (![0] : Fin 1 → Nat) a + S4.size a ≤ S4.size a
  h_S4 : 0 < S4.numel
  shapeCasts_S4_S1x4 : S4.ShapeCasts S1x4
  broadcasts_S1x4_S4096x4 : S1x4.Broadcasts S4096x4
  reduces_S4096x4_S4096 : S4096x4.Reduces [1] S4096
  shapeCasts_S4096_S4096x1 : S4096.ShapeCasts S4096x1
  broadcasts_S4096x1_S4096x4 : S4096x1.Broadcasts S4096x4
  inb_S4096x3_S4096x3_0_0 : ∀ a, (![0, 0] : Fin 2 → Nat) a + S4096x3.size a ≤ S4096x3.size a
  h_S4096x3 : 0 < S4096x3.numel
  inb_S4096x4_S4096x4_0_0 : ∀ a, (![0, 0] : Fin 2 → Nat) a + S4096x4.size a ≤ S4096x4.size a
  h_S4096x4 : 0 < S4096x4.numel
  gather_S16384x2048_S65536x1_S65536x2048_1_0_n_n_0_1_12048_wf : GatherDims.WF S16384x2048 S65536x1 S65536x2048 [1] [0] [] [0] [] 1 ![1, 2048]
  scatter_S16384x2048_S65536x1_S65536x2048_1_0_0_1_wf : ScatterDims.WF S16384x2048 S65536x1 S65536x2048 [1] [0] [0] 1
  dot_S512x2048_S2048x256_S512x256_1_0_0_1_n_n_wf : DotDims.WF S512x2048 S2048x256 S512x256 [1] [0] [0] [1] [] []
  gather_S16384x256_S65536x1_S65536x256_1_0_n_n_0_1_1256_wf : GatherDims.WF S16384x256 S65536x1 S65536x256 [1] [0] [] [0] [] 1 ![1, 256]
  scatter_S16384x256_S65536x1_S65536x256_1_0_0_1_wf : ScatterDims.WF S16384x256 S65536x1 S65536x256 [1] [0] [0] 1
  dot_S2048x256_S256x128_S2048x128_1_0_0_1_n_n_wf : DotDims.WF S2048x256 S256x128 S2048x128 [1] [0] [0] [1] [] []
  gather_S16384x128_S65536x1_S65536x128_1_0_n_n_0_1_1128_wf : GatherDims.WF S16384x128 S65536x1 S65536x128 [1] [0] [] [0] [] 1 ![1, 128]
  scatter_S16384x128_S65536x1_S65536x128_1_0_0_1_wf : ScatterDims.WF S16384x128 S65536x1 S65536x128 [1] [0] [0] 1
  dot_S2048x128_S128x64_S2048x64_1_0_0_1_n_n_wf : DotDims.WF S2048x128 S128x64 S2048x64 [1] [0] [0] [1] [] []
  dot_S4096x64_S64x3_S4096x3_1_0_0_1_n_n_wf : DotDims.WF S4096x64 S64x3 S4096x3 [1] [0] [0] [1] [] []
  dot_S4096x64_S64x4_S4096x4_1_0_0_1_n_n_wf : DotDims.WF S4096x64 S64x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x256.size a
  hwx0_2 : ∀ i : grid0.Coords, EltTy.bits .f32 = 32 ∨ (Rect.block (s := S2048x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .f32 = 32 ∨ (Rect.block (s := S2048x256) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S16384x256.size a
  hwx0_5 : ∀ i : grid0.Coords, EltTy.bits .f32 = 32 ∨ (Rect.block (s := S16384x256) S512x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S16384x256.size a
  hwx1_1 : ∀ i : grid1.Coords, EltTy.bits .f32 = 32 ∨ (Rect.block (s := S16384x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S16384x128.size a
  hwx1_5 : ∀ i : grid1.Coords, EltTy.bits .f32 = 32 ∨ (Rect.block (s := S16384x128) S2048x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S16384x128.size a
  hwx2_0 : ∀ i : grid2.Coords, EltTy.bits .f32 = 32 ∨ (Rect.block (s := S16384x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S16384x128.size a
  hwx2_1 : ∀ i : grid2.Coords, EltTy.bits .f32 = 32 ∨ (Rect.block (s := S16384x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S16384x64.size a
  hwx2_5 : ∀ i : grid2.Coords, EltTy.bits .f32 = 32 ∨ (Rect.block (s := S16384x64) S2048x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S16384x64.size a
  hwx3_0 : ∀ i : grid3.Coords, EltTy.bits .f32 = 32 ∨ (Rect.block (s := S16384x64) S4096x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x3.size a ≤ S64x3.size a
  hwx3_1 : ∀ i : grid3.Coords, EltTy.bits .f32 = 32 ∨ (Rect.block (s := S64x3) S64x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3.size a ≤ S3.size a
  hwx3_2 : ∀ i : grid3.Coords, EltTy.bits .f32 = 32 ∨ (Rect.block (s := S3) S3.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x4.size a ≤ S64x4.size a
  hwx3_3 : ∀ i : grid3.Coords, EltTy.bits .f32 = 32 ∨ (Rect.block (s := S64x4) S64x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S4.size a ≤ S4.size a
  hwx3_4 : ∀ i : grid3.Coords, EltTy.bits .f32 = 32 ∨ (Rect.block (s := S4) S4.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4096x3.size a ≤ S16384x3.size a
  hwx3_5 : ∀ i : grid3.Coords, EltTy.bits .f32 = 32 ∨ (Rect.block (s := S16384x3) S4096x3.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4096x4.size a ≤ S16384x4.size a
  hwx3_6 : ∀ i : grid3.Coords, EltTy.bits .f32 = 32 ∨ (Rect.block (s := S16384x4) S4096x4.size (cc3_transform_6 i) (hinb3_6 i)).WholeWords (EltTy.packing .f32)

variable [Facts₀]

def gather_S16384x2048_S65536x1_S65536x2048_1_0_n_n_0_1_12048 : GatherDims S16384x2048 S65536x1 S65536x2048 where
  offsetDims := [1]
  collapsedSliceDims := [0]
  operandBatchingDims := []
  startIndicesBatchingDims := []
  startIndexMap := [0]
  indexVectorDim := 1
  sliceSizes := ![1, 2048]
  wf := gather_S16384x2048_S65536x1_S65536x2048_1_0_n_n_0_1_12048_wf
def scatter_S16384x2048_S65536x1_S65536x2048_1_0_0_1 : ScatterDims S16384x2048 S65536x1 S65536x2048 where
  updateWindowDims := [1]
  insertedWindowDims := [0]
  scatterDimsToOperandDims := [0]
  indexVectorDim := 1
  wf := scatter_S16384x2048_S65536x1_S65536x2048_1_0_0_1_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def gather_S16384x256_S65536x1_S65536x256_1_0_n_n_0_1_1256 : GatherDims S16384x256 S65536x1 S65536x256 where
  offsetDims := [1]
  collapsedSliceDims := [0]
  operandBatchingDims := []
  startIndicesBatchingDims := []
  startIndexMap := [0]
  indexVectorDim := 1
  sliceSizes := ![1, 256]
  wf := gather_S16384x256_S65536x1_S65536x256_1_0_n_n_0_1_1256_wf
def scatter_S16384x256_S65536x1_S65536x256_1_0_0_1 : ScatterDims S16384x256 S65536x1 S65536x256 where
  updateWindowDims := [1]
  insertedWindowDims := [0]
  scatterDimsToOperandDims := [0]
  indexVectorDim := 1
  wf := scatter_S16384x256_S65536x1_S65536x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S65536x1_S65536x128_1_0_n_n_0_1_1128 : GatherDims S16384x128 S65536x1 S65536x128 where
  offsetDims := [1]
  collapsedSliceDims := [0]
  operandBatchingDims := []
  startIndicesBatchingDims := []
  startIndexMap := [0]
  indexVectorDim := 1
  sliceSizes := ![1, 128]
  wf := gather_S16384x128_S65536x1_S65536x128_1_0_n_n_0_1_1128_wf
def scatter_S16384x128_S65536x1_S65536x128_1_0_0_1 : ScatterDims S16384x128 S65536x1 S65536x128 where
  updateWindowDims := [1]
  insertedWindowDims := [0]
  scatterDimsToOperandDims := [0]
  indexVectorDim := 1
  wf := scatter_S16384x128_S65536x1_S65536x128_1_0_0_1_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf
def dot_S4096x64_S64x4_S4096x4_1_0_0_1_n_n : DotDims S4096x64 S64x4 S4096x4 where
  lhsContracting := [1]
  rhsContracting := [0]
  lhsNonContracting := [0]
  rhsNonContracting := [1]
  lhsBatch := []
  rhsBatch := []
  wf := dot_S4096x64_S64x4_S4096x4_1_0_0_1_n_n_wf

abbrev win0_0 : Pipeline.Window sig grid0 :=
  Pipeline.Window.ofSpec (Memref.whole main_v13) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v35) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S2048x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v36) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S64x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S4.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37_0) S4096x3.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v37_1) S4096x4.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S16384x2048 : Shape := ⟨2, ![16384, 2048]⟩
abbrev S2x65536 : Shape := ⟨2, ![2, 65536]⟩
abbrev S2048x256 : Shape := ⟨2, ![2048, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x3 : Shape := ⟨2, ![64, 3]⟩
abbrev S3 : Shape := ⟨1, ![3]⟩
abbrev S64x4 : Shape := ⟨2, ![64, 4]⟩
abbrev S4 : Shape := ⟨1, ![4]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S65536x2048 : Shape := ⟨2, ![65536, 2048]⟩
abbrev S16384x256 : Shape := ⟨2, ![16384, 256]⟩
abbrev S1x256 : Shape := ⟨2, ![1, 256]⟩
abbrev S65536x256 : Shape := ⟨2, ![65536, 256]⟩
abbrev S16384x128 : Shape := ⟨2, ![16384, 128]⟩
abbrev S1x128 : Shape := ⟨2, ![1, 128]⟩
abbrev S65536x128 : Shape := ⟨2, ![65536, 128]⟩
abbrev S16384x64 : Shape := ⟨2, ![16384, 64]⟩
abbrev S1x64 : Shape := ⟨2, ![1, 64]⟩
abbrev S16384x3 : Shape := ⟨2, ![16384, 3]⟩
abbrev S1x3 : Shape := ⟨2, ![1, 3]⟩
abbrev S16384x4 : Shape := ⟨2, ![16384, 4]⟩
abbrev S1x4 : Shape := ⟨2, ![1, 4]⟩
abbrev S16384 : Shape := ⟨1, ![16384]⟩
abbrev S16384x1 : Shape := ⟨2, ![16384, 1]⟩

abbrev nBuf : Space → Nat
  | .hbm => 103
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x65536, .i32⟩
  | .hbm, ⟨2, _⟩ => ⟨S2048x256, .f32⟩
  | .hbm, ⟨3, _⟩ => ⟨S256, .f32⟩
  | .hbm, ⟨4, _⟩ => ⟨S2048x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64x3, .f32⟩
  | .hbm, ⟨12, _⟩ => ⟨S3, .f32⟩
  | .hbm, ⟨13, _⟩ => ⟨S64x4, .f32⟩
  | .hbm, ⟨14, _⟩ => ⟨S4, .f32⟩
  | .hbm, ⟨15, _⟩ => ⟨S1x65536, .i32⟩
  | .hbm, ⟨16, _⟩ => ⟨S65536, .i32⟩
  | .hbm, ⟨17, _⟩ => ⟨S1x65536, .i32⟩
  | .hbm, ⟨18, _⟩ => ⟨S65536, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i32⟩
  | .hbm, ⟨25, _⟩ => ⟨S65536, .i32⟩
  | .hbm, ⟨26, _⟩ => ⟨S65536x1, .i32⟩
  | .hbm, ⟨27, _⟩ => ⟨S65536x2048, .f32⟩
  | .hbm, ⟨28, _⟩ => ⟨S_, .f32⟩
  | .hbm, ⟨29, _⟩ => ⟨S16384x2048, .f32⟩
  | .hbm, ⟨30, _⟩ => ⟨S65536x1, .i32⟩
  | .hbm, ⟨31, _⟩ => ⟨S16384x2048, .f32⟩
  | .hbm, ⟨32, _⟩ => ⟨S16384x256, .f32⟩
  | .hbm, ⟨33, _⟩ => ⟨S1x256, .f32⟩
  | .hbm, ⟨34, _⟩ => ⟨S16384x256, .f32⟩
  | .hbm, ⟨35, _⟩ => ⟨S16384x256, .f32⟩
  | .hbm, ⟨36, _⟩ => ⟨S16384x256, .f32⟩
  | .hbm, ⟨37, _⟩ => ⟨S16384x256, .f32⟩
  | .hbm, ⟨38, _⟩ => ⟨S_, .f32⟩
  | .hbm, ⟨39, _⟩ => ⟨S16384x256, .f32⟩
  | .hbm, ⟨40, _⟩ => ⟨S16384x256, .f32⟩
  | .hbm, ⟨41, _⟩ => ⟨S_, .i32⟩
  | .hbm, ⟨42, _⟩ => ⟨S65536, .i32⟩
  | .hbm, ⟨43, _⟩ => ⟨S65536, .i1⟩
  | .hbm, ⟨44, _⟩ => ⟨S_, .i32⟩
  | .hbm, ⟨45, _⟩ => ⟨S65536, .i32⟩
  | .hbm, ⟨46, _⟩ => ⟨S65536, .i32⟩
  | .hbm, ⟨47, _⟩ => ⟨S65536, .i32⟩
  | .hbm, ⟨48, _⟩ => ⟨S65536x1, .i32⟩
  | .hbm, ⟨49, _⟩ => ⟨S65536x256, .f32⟩
  | .hbm, ⟨50, _⟩ => ⟨S_, .f32⟩
  | .hbm, ⟨51, _⟩ => ⟨S16384x256, .f32⟩
  | .hbm, ⟨52, _⟩ => ⟨S65536x1, .i32⟩
  | .hbm, ⟨53, _⟩ => ⟨S16384x256, .f32⟩
  | .hbm, ⟨54, _⟩ => ⟨S16384x128, .f32⟩
  | .hbm, ⟨55, _⟩ => ⟨S1x128, .f32⟩
  | .hbm, ⟨56, _⟩ => ⟨S16384x128, .f32⟩
  | .hbm, ⟨57, _⟩ => ⟨S16384x128, .f32⟩
  | .hbm, ⟨58, _⟩ => ⟨S16384x128, .f32⟩
  | .hbm, ⟨59, _⟩ => ⟨S16384x128, .f32⟩
  | .hbm, ⟨60, _⟩ => ⟨S_, .f32⟩
  | .hbm, ⟨61, _⟩ => ⟨S16384x128, .f32⟩
  | .hbm, ⟨62, _⟩ => ⟨S16384x128, .f32⟩
  | .hbm, ⟨63, _⟩ => ⟨S_, .i32⟩
  | .hbm, ⟨64, _⟩ => ⟨S65536, .i32⟩
  | .hbm, ⟨65, _⟩ => ⟨S65536, .i1⟩
  | .hbm, ⟨66, _⟩ => ⟨S_, .i32⟩
  | .hbm, ⟨67, _⟩ => ⟨S65536, .i32⟩
  | .hbm, ⟨68, _⟩ => ⟨S65536, .i32⟩
  | .hbm, ⟨69, _⟩ => ⟨S65536, .i32⟩
  | .hbm, ⟨70, _⟩ => ⟨S65536x1, .i32⟩
  | .hbm, ⟨71, _⟩ => ⟨S65536x128, .f32⟩
  | .hbm, ⟨72, _⟩ => ⟨S_, .f32⟩
  | .hbm, ⟨73, _⟩ => ⟨S16384x128, .f32⟩
  | .hbm, ⟨74, _⟩ => ⟨S65536x1, .i32⟩
  | .hbm, ⟨75, _⟩ => ⟨S16384x128, .f32⟩
  | .hbm, ⟨76, _⟩ => ⟨S16384x64, .f32⟩
  | .hbm, ⟨77, _⟩ => ⟨S1x64, .f32⟩
  | .hbm, ⟨78, _⟩ => ⟨S16384x64, .f32⟩
  | .hbm, ⟨79, _⟩ => ⟨S16384x64, .f32⟩
  | .hbm, ⟨80, _⟩ => ⟨S16384x64, .f32⟩
  | .hbm, ⟨81, _⟩ => ⟨S16384x64, .f32⟩
  | .hbm, ⟨82, _⟩ => ⟨S_, .f32⟩
  | .hbm, ⟨83, _⟩ => ⟨S16384x64, .f32⟩
  | .hbm, ⟨84, _⟩ => ⟨S16384x64, .f32⟩
  | .hbm, ⟨85, _⟩ => ⟨S16384x3, .f32⟩
  | .hbm, ⟨86, _⟩ => ⟨S1x3, .f32⟩
  | .hbm, ⟨87, _⟩ => ⟨S16384x3, .f32⟩
  | .hbm, ⟨88, _⟩ => ⟨S16384x3, .f32⟩
  | .hbm, ⟨89, _⟩ => ⟨S16384x4, .f32⟩
  | .hbm, ⟨90, _⟩ => ⟨S1x4, .f32⟩
  | .hbm, ⟨91, _⟩ => ⟨S16384x4, .f32⟩
  | .hbm, ⟨92, _⟩ => ⟨S16384x4, .f32⟩
  | .hbm, ⟨93, _⟩ => ⟨S16384x4, .f32⟩
  | .hbm, ⟨94, _⟩ => ⟨S_, .f32⟩
  | .hbm, ⟨95, _⟩ => ⟨S16384, .f32⟩
  | .hbm, ⟨96, _⟩ => ⟨S16384x1, .f32⟩
  | .hbm, ⟨97, _⟩ => ⟨S16384x1, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S16384x4, .f32⟩
  | .hbm, ⟨102, _⟩ => ⟨S16384x4, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_c_1 : Ref sig .tc := ⟨.hbm, 41, rfl⟩
abbrev main_v21 : Ref sig .tc := ⟨.hbm, 42, rfl⟩
abbrev main_v22 : Ref sig .tc := ⟨.hbm, 43, rfl⟩
abbrev main_c_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call1_cst : Ref sig .tc := ⟨.hbm, 60, rfl⟩
abbrev main_call1_v0 : Ref sig .tc := ⟨.hbm, 61, rfl⟩
abbrev main_v37 : Ref sig .tc := ⟨.hbm, 62, rfl⟩
abbrev main_c_4 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call3_v0 : Ref sig .tc := ⟨.hbm, 93, rfl⟩
abbrev main_call3_cst : Ref sig .tc := ⟨.hbm, 94, rfl⟩
abbrev main_call3_v1 : Ref sig .tc := ⟨.hbm, 95, rfl⟩
abbrev main_call3_v2 : Ref sig .tc := ⟨.hbm, 96, rfl⟩
abbrev main_v63 : Ref sig .tc := ⟨.hbm, 97, rfl⟩
abbrev main_cst_7 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S_S16384x2048 : S_.BroadcastsInDim S16384x2048 (![] : Fin 0 → Fin S16384x2048.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  reducesTo_S16384x4_S16384_d1 : S16384x4.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4_0_1 : S16384x1.BroadcastsInDim S16384x4 (![0, 1] : Fin 2 → Fin S16384x4.rank)
  gather_S16384x2048_S65536x1_S65536x2048_1_0_n_n_0_1_12048_wf : GatherDims.WF S16384x2048 S65536x1 S65536x2048 [1] [0] [] [0] [] 1 ![1, 2048]
  scatter_S16384x2048_S65536x1_S65536x2048_1_0_0_1_wf : ScatterDims.WF S16384x2048 S65536x1 S65536x2048 [1] [0] [0] 1
  dot_S16384x2048_S2048x256_S16384x256_1_0_0_1_n_n_wf : DotDims.WF S16384x2048 S2048x256 S16384x256 [1] [0] [0] [1] [] []
  gather_S16384x256_S65536x1_S65536x256_1_0_n_n_0_1_1256_wf : GatherDims.WF S16384x256 S65536x1 S65536x256 [1] [0] [] [0] [] 1 ![1, 256]
  scatter_S16384x256_S65536x1_S65536x256_1_0_0_1_wf : ScatterDims.WF S16384x256 S65536x1 S65536x256 [1] [0] [0] 1
  dot_S16384x256_S256x128_S16384x128_1_0_0_1_n_n_wf : DotDims.WF S16384x256 S256x128 S16384x128 [1] [0] [0] [1] [] []
  gather_S16384x128_S65536x1_S65536x128_1_0_n_n_0_1_1128_wf : GatherDims.WF S16384x128 S65536x1 S65536x128 [1] [0] [] [0] [] 1 ![1, 128]
  scatter_S16384x128_S65536x1_S65536x128_1_0_0_1_wf : ScatterDims.WF S16384x128 S65536x1 S65536x128 [1] [0] [0] 1
  dot_S16384x128_S128x64_S16384x64_1_0_0_1_n_n_wf : DotDims.WF S16384x128 S128x64 S16384x64 [1] [0] [0] [1] [] []
  dot_S16384x64_S64x3_S16384x3_1_0_0_1_n_n_wf : DotDims.WF S16384x64 S64x3 S16384x3 [1] [0] [0] [1] [] []
  dot_S16384x64_S64x4_S16384x4_1_0_0_1_n_n_wf : DotDims.WF S16384x64 S64x4 S16384x4 [1] [0] [0] [1] [] []

variable [Facts₀]

def gather_S16384x2048_S65536x1_S65536x2048_1_0_n_n_0_1_12048 : GatherDims S16384x2048 S65536x1 S65536x2048 where
  offsetDims := [1]
  collapsedSliceDims := [0]
  operandBatchingDims := []
  startIndicesBatchingDims := []
  startIndexMap := [0]
  indexVectorDim := 1
  sliceSizes := ![1, 2048]
  wf := gather_S16384x2048_S65536x1_S65536x2048_1_0_n_n_0_1_12048_wf
def scatter_S16384x2048_S65536x1_S65536x2048_1_0_0_1 : ScatterDims S16384x2048 S65536x1 S65536x2048 where
  updateWindowDims := [1]
  insertedWindowDims := [0]
  scatterDimsToOperandDims := [0]
  indexVectorDim := 1
  wf := scatter_S16384x2048_S65536x1_S65536x2048_1_0_0_1_wf
def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def gather_S16384x256_S65536x1_S65536x256_1_0_n_n_0_1_1256 : GatherDims S16384x256 S65536x1 S65536x256 where
  offsetDims := [1]
  collapsedSliceDims := [0]
  operandBatchingDims := []
  startIndicesBatchingDims := []
  startIndexMap := [0]
  indexVectorDim := 1
  sliceSizes := ![1, 256]
  wf := gather_S16384x256_S65536x1_S65536x256_1_0_n_n_0_1_1256_wf
def scatter_S16384x256_S65536x1_S65536x256_1_0_0_1 : ScatterDims S16384x256 S65536x1 S65536x256 where
  updateWindowDims := [1]
  insertedWindowDims := [0]
  scatterDimsToOperandDims := [0]
  indexVectorDim := 1
  wf := scatter_S16384x256_S65536x1_S65536x256_1_0_0_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def gather_S16384x128_S65536x1_S65536x128_1_0_n_n_0_1_1128 : GatherDims S16384x128 S65536x1 S65536x128 where
  offsetDims := [1]
  collapsedSliceDims := [0]
  operandBatchingDims := []
  startIndicesBatchingDims := []
  startIndexMap := [0]
  indexVectorDim := 1
  sliceSizes := ![1, 128]
  wf := gather_S16384x128_S65536x1_S65536x128_1_0_n_n_0_1_1128_wf
def scatter_S16384x128_S65536x1_S65536x128_1_0_0_1 : ScatterDims S16384x128 S65536x1 S65536x128 where
  updateWindowDims := [1]
  insertedWindowDims := [0]
  scatterDimsToOperandDims := [0]
  indexVectorDim := 1
  wf := scatter_S16384x128_S65536x1_S65536x128_1_0_0_1_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x3_S16384x3_1_0_0_1_n_n : DotDims S16384x64 S64x3 S16384x3 where
  lhsContracting := [1]
  rhsContracting := [0]
  lhsNonContracting := [0]
  rhsNonContracting := [1]
  lhsBatch := []
  rhsBatch := []
  wf := dot_S16384x64_S64x3_S16384x3_1_0_0_1_n_n_wf
def dot_S16384x64_S64x4_S16384x4_1_0_0_1_n_n : DotDims S16384x64 S64x4 S16384x4 where
  lhsContracting := [1]
  rhsContracting := [0]
  lhsNonContracting := [0]
  rhsNonContracting := [1]
  lhsBatch := []
  rhsBatch := []
  wf := dot_S16384x64_S64x4_S16384x4_1_0_0_1_n_n_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.GraphNet.lean ====
/-
  THE NETWORK, ENTRY BY ENTRY, over the extended reals. One graph-convolution layer takes the neighbour sums `agg` and the
  node features `h` (both N × K), two weight matrices (K × M) and a bias (M) to the N × M array whose entry (p, q) is
  max(Σ_k agg(p,k)·Wrel(k,q) + Σ_k h(p,k)·Wroot(k,q) + b(q), 0). The two heads take the last features (N × K) to the position
  Σ_k h(p,k)·Wp(k,q) + bp(q) and to the orientation o(p,q) / max(√(Σ_j o(p,j)²), ε), where o(p,q) = Σ_k h(p,k)·Wo(k,q) + bo(q)
  and ε is the float the normalisation clamps the norm with. Every entry of a layer depends on ONE row of `agg` and of `h`.
-/
import Idealize.ShloMosaic.Lib.ValueIdx
import Idealize.ShloMosaic.PureOps.Ideal.Laws

open scoped BigOperators

noncomputable section

namespace Cert.GraphNet

open Idealize.ShloMosaic Idealize.ShloMosaic.ValueIdx

variable {N K M : Nat}

/-- Entry (p, q) of a layer from row p of the neighbour sums and of the features. -/
def layerAt (agg h : (⟨2, ![N, K]⟩ : Shape).Idx → EReal) (wr wo : (⟨2, ![K, M]⟩ : Shape).Idx → EReal)
    (b : (⟨1, ![M]⟩ : Shape).Idx → EReal) (p : Fin N) (q : Fin M) : EReal :=
  max ((∑ k : Fin K, agg (ix2 p k) * wr (ix2 k q)) + (∑ k : Fin K, h (ix2 p k) * wo (ix2 k q)) + b (ix1 q)) 0

/-- The layer's whole output array. -/
def layer (agg h : (⟨2, ![N, K]⟩ : Shape).Idx → EReal) (wr wo : (⟨2, ![K, M]⟩ : Shape).Idx → EReal)
    (b : (⟨1, ![M]⟩ : Shape).Idx → EReal) : (⟨2, ![N, M]⟩ : Shape).Idx → EReal :=
  fun i => layerAt agg h wr wo b ⟨(i 0).val, idx2_lt0 i⟩ ⟨(i 1).val, idx2_lt1 i⟩

theorem layer_ix2 (agg h : (⟨2, ![N, K]⟩ : Shape).Idx → EReal) (wr wo : (⟨2, ![K, M]⟩ : Shape).Idx → EReal)
    (b : (⟨1, ![M]⟩ : Shape).Idx → EReal) (p : Fin N) (q : Fin M) :
    layer agg h wr wo b (ix2 p q) = layerAt agg h wr wo b p q := rfl

/-- A layer's entry in row p reads only row p of its two row-indexed operands: two pairs of operands that agree on
    that row give the same entry. -/
theorem layerAt_congr_row {N' : Nat} (agg h : (⟨2, ![N, K]⟩ : Shape).Idx → EReal) (agg' h' : (⟨2, ![N', K]⟩ : Shape).Idx → EReal)
    (wr wo : (⟨2, ![K, M]⟩ : Shape).Idx → EReal) (b : (⟨1, ![M]⟩ : Shape).Idx → EReal) (p : Fin N) (p' : Fin N') (q : Fin M)
    (ha : ∀ k : Fin K, agg' (ix2 p' k) = agg (ix2 p k)) (hh : ∀ k : Fin K, h' (ix2 p' k) = h (ix2 p k)) :
    layerAt agg' h' wr wo b p' q = layerAt agg h wr wo b p q := by
  unfold layerAt
  simp only [ha, hh]

/-- An affine head's entry (p, q): row p of the features against column q of the weights, plus the bias. -/
def affineAt (h : (⟨2, ![N, K]⟩ : Shape).Idx → EReal) (w : (⟨2, ![K, M]⟩ : Shape).Idx → EReal)
    (b : (⟨1, ![M]⟩ : Shape).Idx → EReal) (p : Fin N) (q : Fin M) : EReal :=
  (∑ k : Fin K, h (ix2 p k) * w (ix2 k q)) + b (ix1 q)

/-- The position head's whole output. -/
def affine (h : (⟨2, ![N, K]⟩ : Shape).Idx → EReal) (w : (⟨2, ![K, M]⟩ : Shape).Idx → EReal)
    (b : (⟨1, ![M]⟩ : Shape).Idx → EReal) : (⟨2, ![N, M]⟩ : Shape).Idx → EReal :=
  fun i => affineAt h w b ⟨(i 0).val, idx2_lt0 i⟩ ⟨(i 1).val, idx2_lt1 i⟩

theorem affine_ix2 (h : (⟨2, ![N, K]⟩ : Shape).Idx → EReal) (w : (⟨2, ![K, M]⟩ : Shape).Idx → EReal)
    (b : (⟨1, ![M]⟩ : Shape).Idx → EReal) (p : Fin N) (q : Fin M) : affine h w b (ix2 p q) = affineAt h w b p q := rfl

theorem affineAt_congr_row {N' : Nat} (h : (⟨2, ![N, K]⟩ : Shape).Idx → EReal) (h' : (⟨2, ![N', K]⟩ : Shape).Idx → EReal)
    (w : (⟨2, ![K, M]⟩ : Shape).Idx → EReal) (b : (⟨1, ![M]⟩ : Shape).Idx → EReal) (p : Fin N) (p' : Fin N') (q : Fin M)
    (hh : ∀ k : Fin K, h' (ix2 p' k) = h (ix2 p k)) : affineAt h' w b p' q = affineAt h w b p q := by
  unfold affineAt
  simp only [hh]

/-- The normalised head's entry (p, q): the affine entry over the clamped Euclidean norm of row p of the affine output. -/
def unitAt (h : (⟨2, ![N, K]⟩ : Shape).Idx → EReal) (w : (⟨2, ![K, M]⟩ : Shape).Idx → EReal)
    (b : (⟨1, ![M]⟩ : Shape).Idx → EReal) (p : Fin N) (q : Fin M) : EReal :=
  Ideal.div (affineAt h w b p q)
    (max (Ideal.sqrt (∑ j : Fin M, affineAt h w b p j * affineAt h w b p j)) (Ideal.ofBits .f32 0x2B8CBCCC#32))

/-- The orientation head's whole output. -/
def unit (h : (⟨2, ![N, K]⟩ : Shape).Idx → EReal) (w : (⟨2, ![K, M]⟩ : Shape).Idx → EReal)
    (b : (⟨1, ![M]⟩ : Shape).Idx → EReal) : (⟨2, ![N, M]⟩ : Shape).Idx → EReal :=
  fun i => unitAt h w b ⟨(i 0).val, idx2_lt0 i⟩ ⟨(i 1).val, idx2_lt1 i⟩

theorem unit_ix2 (h : (⟨2, ![N, K]⟩ : Shape).Idx → EReal) (w : (⟨2, ![K, M]⟩ : Shape).Idx → EReal)
    (b : (⟨1, ![M]⟩ : Shape).Idx → EReal) (p : Fin N) (q : Fin M) : unit h w b (ix2 p q) = unitAt h w b p q := rfl

theorem unitAt_congr_row {N' : Nat} (h : (⟨2, ![N, K]⟩ : Shape).Idx → EReal) (h' : (⟨2, ![N', K]⟩ : Shape).Idx → EReal)
    (w : (⟨2, ![K, M]⟩ : Shape).Idx → EReal) (b : (⟨1, ![M]⟩ : Shape).Idx → EReal) (p : Fin N) (p' : Fin N') (q : Fin M)
    (hh : ∀ k : Fin K, h' (ix2 p' k) = h (ix2 p k)) : unitAt h' w b p' q = unitAt h w b p q := by
  unfold unitAt
  simp only [affineAt_congr_row h h' w b p p' _ hh]

end Cert.GraphNet

end
-- ==== Proof.Layer0Body.lean ====
/-
  THE FIRST LAYER'S BODY AT ONE ENTRY. On a block of 512 rows the body multiplies the block of neighbour sums by the
  relation weights and the block of node features by the root weights (each product accumulated from zero, so the plain sum
  over the 2048 contracted coordinates), adds the two products, adds the bias along the rows and clamps at zero. The narrowing
  of every operand to sixteen bits changes nothing over the extended reals. So entry (p, q) of what the body stores is the
  layer's entry of the two blocks' row p.
-/
import proofs.«130041_j62483184222219_1_alg».proof.Proof.Gen.KernelIdeal.Skeleton
import proofs.«130041_j62483184222219_1_alg».proof.Proof.LibPlainMatmul
import proofs.«130041_j62483184222219_1_alg».proof.Proof.GraphNet
import Idealize.ShloMosaic.Lib.ValueLayout

open scoped BigOperators

noncomputable section

namespace Cert.KernelIdeal.LayerBody

open Cert.KernelIdeal Cert.KernelIdeal.Gen Idealize.ShloMosaic Idealize.ShloMosaic.ValueIdx Cert.GraphNet

/-- The first layer's stored value at (p, q). -/
theorem body0_at (agg x : Vec Ideal S512x2048 .f32) (wr wo : Vec Ideal S2048x256 .f32) (b : Vec Ideal S256 .f32)
    (p : Fin 512) (q : Fin 256) :
    k0_pay1 (F := Ideal) agg x wr wo b (ix2 p q) = layerAt (N := 512) (K := 2048) (M := 256) agg x wr wo b p q := by
  unfold k0_pay1 layerAt
  rw [maximumf_apply, addf_apply, addf_apply]
  rw [PlainMatmul.matmul_zero_apply dot_S512x2048_S2048x256_S512x256_1_0_0_1_n_n
      dot_S512x2048_S2048x256_S512x256_1_0_0_1_n_n.wf rfl none _ _ p q,
    PlainMatmul.matmul_zero_apply dot_S512x2048_S2048x256_S512x256_1_0_0_1_n_n
      dot_S512x2048_S2048x256_S512x256_1_0_0_1_n_n.wf rfl none _ _ p q]
  rw [broadcastTo_1b_ab_apply, shapeCast_a_1a_apply]
  simp only [truncf_apply, shapeCast_self, broadcast_apply]
  show max _ (Ideal.ofBits .f32 0x00000000#32) = _
  rw [Ideal.ofBits_zero_f32]

end Cert.KernelIdeal.LayerBody

end
-- ==== Proof.Layer0Array.lean ====
/-
  THE FIRST LAYER'S OUTPUT ARRAY. The grid cuts the 16384 rows into 32 blocks of 512; point t reads the 512 rows from row 512·t on
  of the neighbour sums and of the node features, all of both weight matrices and of the bias, and writes back the same
  512 rows of the output. An entry of the layer depends on one row of the two row-indexed operands only, so what
  point t writes back is block t of the layer applied to the WHOLE arrays; the 32 blocks cover every row, so the array after
  the region is the layer of the arrays the region was entered with.
-/
import proofs.«130041_j62483184222219_1_alg».proof.Proof.Gen.KernelIdeal.Frame
import proofs.«130041_j62483184222219_1_alg».proof.Proof.Layer0Body
import Idealize.ShloMosaic.Lib.Pipeline.Value

set_option maxRecDepth 16384

open scoped BigOperators

noncomputable section

namespace Cert.KernelIdeal.Layer0

open Cert.KernelIdeal Cert.KernelIdeal.Gen Idealize.ShloMosaic Idealize.ShloMosaic.TcCoe Idealize.ShloMosaic.ValueIdx Cert.GraphNet
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices over the grid: the three row-blocked windows are at block (t, 0), the weights and the bias at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body's stored entry (p, q), over blocks that hold row r of the row-indexed arrays in their row p and the other
    arrays whole, is the layer's entry (r, q) of the arrays. -/
theorem body_of_rows (A X : S16384x2048.Idx → EReal) (Wr Wo : S2048x256.Idx → EReal) (B : S256.Idx → EReal)
    (a x : Vec Ideal S512x2048 .f32) (wr wo : Vec Ideal S2048x256 .f32) (b : Vec Ideal S256 .f32)
    (r : Fin 16384) (p : Fin 512) (q : Fin 256)
    (ha : ∀ k : Fin 2048, a (ix2 p k) = A (ix2 r k)) (hx : ∀ k : Fin 2048, x (ix2 p k) = X (ix2 r k))
    (hwr : wr = Wr) (hwo : wo = Wo) (hb : b = B) :
    k0_pay1 (F := Ideal) a x wr wo b (ix2 p q) = layer (N := 16384) (K := 2048) (M := 256) A X Wr Wo B (ix2 r q) := by
  subst hwr hwo hb
  rw [LayerBody.body0_at, layer_ix2]
  exact layerAt_congr_row A X a x wr wo b r p q ha hx

/-- WHAT POINT t WRITES BACK is block t of the layer of the arrays as the region finds them. -/
theorem flushed_eq (c : Dev nD) (t : Fin cfg0.N) :
    (dat0 V c).flushed 5 t = ((cfg0.win 5).blk t).view.read (Elt Ideal)
      (layer (N := 16384) (K := 2048) (M := 256) (V c main_v13) (V c main_arg0) (V c main_arg2) (V c main_arg4) (V c main_arg3)) := by
  show (cfg0.win 5).cut (grid0.coords t) ((dat0 V c).after 5 t) = _
  rw [after0_5]
  unfold out0_5
  rw [View.canon_unit_zero hz2]
  simp only [View.ld_unit_zero (S := S512x2048) hz2, View.ld_unit_zero (S := S2048x256) hz2, View.ld_unit_zero (S := S256) hz1]
  obtain ⟨e00, e01, e10, e11, e20, e21, e30, e40, e41, e50, e51⟩ := block_indices t
  have ht : t.val < 32 := t.isLt
  funext j
  obtain ⟨p, q, rfl⟩ : ∃ (p : Fin 512) (q : Fin 256), j = ix2 p q := ⟨j 0, j 1, @eq_ix2 512 256 j⟩
  have hp : p.val < 512 := p.isLt
  have hq : q.val < 256 := q.isLt
  show k0_pay1 (F := Ideal) (iblk0 V c 0 t) (iblk0 V c 1 t) (iblk0 V c 2 t) (iblk0 V c 4 t) (iblk0 V c 3 t) (ix2 p q)
    = layer (N := 16384) (K := 2048) (M := 256) (V c main_v13) (V c main_arg0) (V c main_arg2) (V c main_arg4) (V c main_arg3)
        (((cfg0.win 5).blk t).view.emb (ix2 p q))
  have h5 : ((cfg0.win 5).blk t).view.emb (ix2 p q)
      = ix2 (⟨t.val * 512 + p.val, by omega⟩ : Fin 16384) q := by
    funext a; apply Fin.ext
    match a with
    | ⟨0, _⟩ => show win0_5.index t (0 : Fin 2) * 512 + 1 * p.val = t.val * 512 + p.val; omega
    | ⟨1, _⟩ => show win0_5.index t (1 : Fin 2) * 256 + 1 * q.val = q.val; omega
  rw [h5]
  refine body_of_rows (V c main_v13) (V c main_arg0) (V c main_arg2) (V c main_arg4) (V c main_arg3)
    (iblk0 V c 0 t) (iblk0 V c 1 t) (iblk0 V c 2 t) (iblk0 V c 4 t) (iblk0 V c 3 t) _ p q ?_ ?_ ?_ ?_ ?_
  · intro k
    show V c main_v13 (((cfg0.win 0).blk t).view.emb (ix2 p k)) = _
    congr 1
    funext a; apply Fin.ext
    match a with
    | ⟨0, _⟩ => show win0_0.index t (0 : Fin 2) * 512 + 1 * p.val = t.val * 512 + p.val; omega
    | ⟨1, _⟩ => show win0_0.index t (1 : Fin 2) * 2048 + 1 * k.val = k.val; omega
  · intro k
    show V c main_arg0 (((cfg0.win 1).blk t).view.emb (ix2 p k)) = _
    congr 1
    funext a; apply Fin.ext
    match a with
    | ⟨0, _⟩ => show win0_1.index t (0 : Fin 2) * 512 + 1 * p.val = t.val * 512 + p.val; omega
    | ⟨1, _⟩ => show win0_1.index t (1 : Fin 2) * 2048 + 1 * k.val = k.val; omega
  · funext y
    show V c main_arg2 (((cfg0.win 2).blk t).view.emb y) = V c main_arg2 y
    congr 1
    funext a; apply Fin.ext
    match a with
    | ⟨0, _⟩ => show win0_2.index t (0 : Fin 2) * 2048 + 1 * (y 0).val = (y 0).val; omega
    | ⟨1, _⟩ => show win0_2.index t (1 : Fin 2) * 256 + 1 * (y 1).val = (y 1).val; omega
  · funext y
    show V c main_arg4 (((cfg0.win 4).blk t).view.emb y) = V c main_arg4 y
    congr 1
    funext a; apply Fin.ext
    match a with
    | ⟨0, _⟩ => show win0_4.index t (0 : Fin 2) * 2048 + 1 * (y 0).val = (y 0).val; omega
    | ⟨1, _⟩ => show win0_4.index t (1 : Fin 2) * 256 + 1 * (y 1).val = (y 1).val; omega
  · funext y
    show V c main_arg3 (((cfg0.win 3).blk t).view.emb y) = V c main_arg3 y
    congr 1
    funext a; apply Fin.ext
    match a with
    | ⟨0, _⟩ => show win0_3.index t (0 : Fin 1) * 256 + 1 * (y 0).val = (y 0).val; omega

/-- An index of the output array is in point t's block iff each coordinate is in the block's range on its axis. -/
theorem mem_blk (t : Fin cfg0.N) (i : S16384x256.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v14).slice (win0_5.rect t)).set ↔ _
  rw [View.set_slice_whole, Rect.mem_set_unit]
  exact Iff.rfl

/-- Every index of the output array is in the block of the point its row falls in. -/
theorem cover (i : S16384x256.Idx) : ∃ t : Fin cfg0.N, (cfg0.win 5).flush t = true ∧ i ∈ ((cfg0.win 5).blk t).view.set := by
  have hi0 : (i 0).val < 16384 := (i 0).isLt
  have hi1 : (i 1).val < 256 := (i 1).isLt
  let t : Fin cfg0.N := ⟨(i 0).val / 512, by show (i 0).val / 512 < 32; omega⟩
  obtain ⟨e00, e01, e10, e11, e20, e21, e30, e40, e41, e50, e51⟩ := block_indices t
  have htv : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- THE ARRAY after the region: the layer of the arrays the region was entered with. -/
theorem final (c : Dev nD) :
    (dat0 V c).arrAt 5 cfg0.N
      = layer (N := 16384) (K := 2048) (M := 256) (V c main_v13) (V c main_arg0) (V c main_arg2) (V c main_arg4) (V c main_arg3) :=
  (dat0 V c).arrAt_eq_of_cover 5 _ (fun t _ => flushed_eq V c t) cover

end Cert.KernelIdeal.Layer0

end
-- ==== Proof.Layer1Body.lean ====
/-
  THE SECOND LAYER'S BODY AT ONE ENTRY. On a block of 2048 rows the body multiplies the block of neighbour sums by the
  relation weights and the block of node features by the root weights (each product accumulated from zero, so the plain sum
  over the 256 contracted coordinates), adds the two products, adds the bias along the rows and clamps at zero. The narrowing
  of every operand to sixteen bits changes nothing over the extended reals. So entry (p, q) of what the body stores is the
  layer's entry of the two blocks' row p.
-/
import proofs.«130041_j62483184222219_1_alg».proof.Proof.Gen.KernelIdeal.Skeleton
import proofs.«130041_j62483184222219_1_alg».proof.Proof.LibPlainMatmul
import proofs.«130041_j62483184222219_1_alg».proof.Proof.GraphNet
import Idealize.ShloMosaic.Lib.ValueLayout

open scoped BigOperators

noncomputable section

namespace Cert.KernelIdeal.LayerBody

open Cert.KernelIdeal Cert.KernelIdeal.Gen Idealize.ShloMosaic Idealize.ShloMosaic.ValueIdx Cert.GraphNet

/-- The second layer's stored value at (p, q). -/
theorem body1_at (agg x : Vec Ideal S2048x256 .f32) (wr wo : Vec Ideal S256x128 .f32) (b : Vec Ideal S128 .f32)
    (p : Fin 2048) (q : Fin 128) :
    k1_pay1 (F := Ideal) agg x wr wo b (ix2 p q) = layerAt (N := 2048) (K := 256) (M := 128) agg x wr wo b p q := by
  unfold k1_pay1 layerAt
  rw [maximumf_apply, addf_apply, addf_apply]
  rw [PlainMatmul.matmul_zero_apply dot_S2048x256_S256x128_S2048x128_1_0_0_1_n_n
      dot_S2048x256_S256x128_S2048x128_1_0_0_1_n_n.wf rfl none _ _ p q,
    PlainMatmul.matmul_zero_apply dot_S2048x256_S256x128_S2048x128_1_0_0_1_n_n
      dot_S2048x256_S256x128_S2048x128_1_0_0_1_n_n.wf rfl none _ _ p q]
  rw [broadcastTo_1b_ab_apply, shapeCast_a_1a_apply]
  simp only [truncf_apply, shapeCast_self, broadcast_apply]
  show max _ (Ideal.ofBits .f32 0x00000000#32) = _
  rw [Ideal.ofBits_zero_f32]

end Cert.KernelIdeal.LayerBody

end
-- ==== Proof.Layer1Array.lean ====
/-
  THE SECOND LAYER'S OUTPUT ARRAY. The grid cuts the 16384 rows into 8 blocks of 2048; point t reads the 2048 rows from row 2048·t on
  of the neighbour sums and of the node features, all of both weight matrices and of the bias, and writes back the same
  2048 rows of the output. An entry of the layer depends on one row of the two row-indexed operands only, so what
  point t writes back is block t of the layer applied to the WHOLE arrays; the 8 blocks cover every row, so the array after
  the region is the layer of the arrays the region was entered with.
-/
import proofs.«130041_j62483184222219_1_alg».proof.Proof.Gen.KernelIdeal.Frame
import proofs.«130041_j62483184222219_1_alg».proof.Proof.Layer1Body
import Idealize.ShloMosaic.Lib.Pipeline.Value

set_option maxRecDepth 16384

open scoped BigOperators

noncomputable section

namespace Cert.KernelIdeal.Layer1

open Cert.KernelIdeal Cert.KernelIdeal.Gen Idealize.ShloMosaic Idealize.ShloMosaic.TcCoe Idealize.ShloMosaic.ValueIdx Cert.GraphNet
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices over the grid: the three row-blocked windows are at block (t, 0), the weights and the bias at block 0. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The body's stored entry (p, q), over blocks that hold row r of the row-indexed arrays in their row p and the other
    arrays whole, is the layer's entry (r, q) of the arrays. -/
theorem body_of_rows (A X : S16384x256.Idx → EReal) (Wr Wo : S256x128.Idx → EReal) (B : S128.Idx → EReal)
    (a x : Vec Ideal S2048x256 .f32) (wr wo : Vec Ideal S256x128 .f32) (b : Vec Ideal S128 .f32)
    (r : Fin 16384) (p : Fin 2048) (q : Fin 128)
    (ha : ∀ k : Fin 256, a (ix2 p k) = A (ix2 r k)) (hx : ∀ k : Fin 256, x (ix2 p k) = X (ix2 r k))
    (hwr : wr = Wr) (hwo : wo = Wo) (hb : b = B) :
    k1_pay1 (F := Ideal) a x wr wo b (ix2 p q) = layer (N := 16384) (K := 256) (M := 128) A X Wr Wo B (ix2 r q) := by
  subst hwr hwo hb
  rw [LayerBody.body1_at, layer_ix2]
  exact layerAt_congr_row A X a x wr wo b r p q ha hx

/-- WHAT POINT t WRITES BACK is block t of the layer of the arrays as the region finds them. -/
theorem flushed_eq (c : Dev nD) (t : Fin cfg1.N) :
    (dat1 V c).flushed 5 t = ((cfg1.win 5).blk t).view.read (Elt Ideal)
      (layer (N := 16384) (K := 256) (M := 128) (V c main_v24) (V c main_v14) (V c main_arg5) (V c main_arg7) (V c main_arg6)) := by
  show (cfg1.win 5).cut (grid1.coords t) ((dat1 V c).after 5 t) = _
  rw [after1_5]
  unfold out1_5
  rw [View.canon_unit_zero hz2]
  simp only [View.ld_unit_zero (S := S2048x256) hz2, View.ld_unit_zero (S := S256x128) hz2, View.ld_unit_zero (S := S128) hz1]
  obtain ⟨e00, e01, e10, e11, e20, e21, e30, e40, e41, e50, e51⟩ := block_indices t
  have ht : t.val < 8 := t.isLt
  funext j
  obtain ⟨p, q, rfl⟩ : ∃ (p : Fin 2048) (q : Fin 128), j = ix2 p q := ⟨j 0, j 1, @eq_ix2 2048 128 j⟩
  have hp : p.val < 2048 := p.isLt
  have hq : q.val < 128 := q.isLt
  show k1_pay1 (F := Ideal) (iblk1 V c 0 t) (iblk1 V c 1 t) (iblk1 V c 2 t) (iblk1 V c 4 t) (iblk1 V c 3 t) (ix2 p q)
    = layer (N := 16384) (K := 256) (M := 128) (V c main_v24) (V c main_v14) (V c main_arg5) (V c main_arg7) (V c main_arg6)
        (((cfg1.win 5).blk t).view.emb (ix2 p q))
  have h5 : ((cfg1.win 5).blk t).view.emb (ix2 p q)
      = ix2 (⟨t.val * 2048 + p.val, by omega⟩ : Fin 16384) q := by
    funext a; apply Fin.ext
    match a with
    | ⟨0, _⟩ => show win1_5.index t (0 : Fin 2) * 2048 + 1 * p.val = t.val * 2048 + p.val; omega
    | ⟨1, _⟩ => show win1_5.index t (1 : Fin 2) * 128 + 1 * q.val = q.val; omega
  rw [h5]
  refine body_of_rows (V c main_v24) (V c main_v14) (V c main_arg5) (V c main_arg7) (V c main_arg6)
    (iblk1 V c 0 t) (iblk1 V c 1 t) (iblk1 V c 2 t) (iblk1 V c 4 t) (iblk1 V c 3 t) _ p q ?_ ?_ ?_ ?_ ?_
  · intro k
    show V c main_v24 (((cfg1.win 0).blk t).view.emb (ix2 p k)) = _
    congr 1
    funext a; apply Fin.ext
    match a with
    | ⟨0, _⟩ => show win1_0.index t (0 : Fin 2) * 2048 + 1 * p.val = t.val * 2048 + p.val; omega
    | ⟨1, _⟩ => show win1_0.index t (1 : Fin 2) * 256 + 1 * k.val = k.val; omega
  · intro k
    show V c main_v14 (((cfg1.win 1).blk t).view.emb (ix2 p k)) = _
    congr 1
    funext a; apply Fin.ext
    match a with
    | ⟨0, _⟩ => show win1_1.index t (0 : Fin 2) * 2048 + 1 * p.val = t.val * 2048 + p.val; omega
    | ⟨1, _⟩ => show win1_1.index t (1 : Fin 2) * 256 + 1 * k.val = k.val; omega
  · funext y
    show V c main_arg5 (((cfg1.win 2).blk t).view.emb y) = V c main_arg5 y
    congr 1
    funext a; apply Fin.ext
    match a with
    | ⟨0, _⟩ => show win1_2.index t (0 : Fin 2) * 256 + 1 * (y 0).val = (y 0).val; omega
    | ⟨1, _⟩ => show win1_2.index t (1 : Fin 2) * 128 + 1 * (y 1).val = (y 1).val; omega
  · funext y
    show V c main_arg7 (((cfg1.win 4).blk t).view.emb y) = V c main_arg7 y
    congr 1
    funext a; apply Fin.ext
    match a with
    | ⟨0, _⟩ => show win1_4.index t (0 : Fin 2) * 256 + 1 * (y 0).val = (y 0).val; omega
    | ⟨1, _⟩ => show win1_4.index t (1 : Fin 2) * 128 + 1 * (y 1).val = (y 1).val; omega
  · funext y
    show V c main_arg6 (((cfg1.win 3).blk t).view.emb y) = V c main_arg6 y
    congr 1
    funext a; apply Fin.ext
    match a with
    | ⟨0, _⟩ => show win1_3.index t (0 : Fin 1) * 128 + 1 * (y 0).val = (y 0).val; omega

/-- An index of the output array is in point t's block iff each coordinate is in the block's range on its axis. -/
theorem mem_blk (t : Fin cfg1.N) (i : S16384x128.Idx) :
    i ∈ ((cfg1.win 5).blk t).view.set ↔ ∀ a : Fin 2, win1_5.index t a * S2048x128.size a ≤ (i a).val ∧ (i a).val < win1_5.index t a * S2048x128.size a + S2048x128.size a := by
  show i ∈ ((View.whole main_v25).slice (win1_5.rect t)).set ↔ _
  rw [View.set_slice_whole, Rect.mem_set_unit]
  exact Iff.rfl

/-- Every index of the output array is in the block of the point its row falls in. -/
theorem cover (i : S16384x128.Idx) : ∃ t : Fin cfg1.N, (cfg1.win 5).flush t = true ∧ i ∈ ((cfg1.win 5).blk t).view.set := by
  have hi0 : (i 0).val < 16384 := (i 0).isLt
  have hi1 : (i 1).val < 128 := (i 1).isLt
  let t : Fin cfg1.N := ⟨(i 0).val / 2048, by show (i 0).val / 2048 < 8; omega⟩
  obtain ⟨e00, e01, e10, e11, e20, e21, e30, e40, e41, e50, e51⟩ := block_indices t
  have htv : t.val = (i 0).val / 2048 := rfl
  refine ⟨t, flush1_5 t, ?_⟩
  rw [mem_blk]
  intro a
  match a with
  | ⟨0, _⟩ => show win1_5.index t (0 : Fin 2) * 2048 ≤ (i 0).val ∧ (i 0).val < win1_5.index t (0 : Fin 2) * 2048 + 2048; omega
  | ⟨1, _⟩ => show win1_5.index t (1 : Fin 2) * 128 ≤ (i 1).val ∧ (i 1).val < win1_5.index t (1 : Fin 2) * 128 + 128; omega

/-- THE ARRAY after the region: the layer of the arrays the region was entered with. -/
theorem final (c : Dev nD) :
    (dat1 V c).arrAt 5 cfg1.N
      = layer (N := 16384) (K := 256) (M := 128) (V c main_v24) (V c main_v14) (V c main_arg5) (V c main_arg7) (V c main_arg6) :=
  (dat1 V c).arrAt_eq_of_cover 5 _ (fun t _ => flushed_eq V c t) cover

end Cert.KernelIdeal.Layer1

end
-- ==== Proof.Layer2Body.lean ====
/-
  THE THIRD LAYER'S BODY AT ONE ENTRY. On a block of 2048 rows the body multiplies the block of neighbour sums by the
  relation weights and the block of node features by the root weights (each product accumulated from zero, so the plain sum
  over the 128 contracted coordinates), adds the two products, adds the bias along the rows and clamps at zero. The narrowing
  of every operand to sixteen bits changes nothing over the extended reals. So entry (p, q) of what the body stores is the
  layer's entry of the two blocks' row p.
-/
import proofs.«130041_j62483184222219_1_alg».proof.Proof.Gen.KernelIdeal.Skeleton
import proofs.«130041_j62483184222219_1_alg».proof.Proof.LibPlainMatmul
import proofs.«130041_j62483184222219_1_alg».proof.Proof.GraphNet
import Idealize.ShloMosaic.Lib.ValueLayout

open scoped BigOperators

noncomputable section

namespace Cert.KernelIdeal.LayerBody

open Cert.KernelIdeal Cert.KernelIdeal.Gen Idealize.ShloMosaic Idealize.ShloMosaic.ValueIdx Cert.GraphNet

/-- The third layer's stored value at (p, q). -/
theorem body2_at (agg x : Vec Ideal S2048x128 .f32) (wr wo : Vec Ideal S128x64 .f32) (b : Vec Ideal S64 .f32)
    (p : Fin 2048) (q : Fin 64) :
    k2_pay1 (F := Ideal) agg x wr wo b (ix2 p q) = layerAt (N := 2048) (K := 128) (M := 64) agg x wr wo b p q := by
  unfold k2_pay1 layerAt
  rw [maximumf_apply, addf_apply, addf_apply]
  rw [PlainMatmul.matmul_zero_apply dot_S2048x128_S128x64_S2048x64_1_0_0_1_n_n
      dot_S2048x128_S128x64_S2048x64_1_0_0_1_n_n.wf rfl none _ _ p q,
    PlainMatmul.matmul_zero_apply dot_S2048x128_S128x64_S2048x64_1_0_0_1_n_n
      dot_S2048x128_S128x64_S2048x64_1_0_0_1_n_n.wf rfl none _ _ p q]
  rw [broadcastTo_1b_ab_apply, shapeCast_a_1a_apply]
  simp only [truncf_apply, shapeCast_self, broadcast_apply]
  show max _ (Ideal.ofBits .f32 0x00000000#32) = _
  rw [Ideal.ofBits_zero_f32]

end Cert.KernelIdeal.LayerBody

end
-- ==== Proof.Layer2Array.lean ====
/-
  THE THIRD LAYER'S OUTPUT ARRAY. The grid cuts the 16384 rows into 8 blocks of 2048; point t reads the 2048 rows from row 2048·t on
  of the neighbour sums and of the node features, all of both weight matrices and of the bias, and writes back the same
  2048 rows of the output. An entry of the layer depends on one row of the two row-indexed operands only, so what
  point t writes back is block t of the layer applied to the WHOLE arrays; the 8 blocks cover every row, so the array after
  the region is the layer of the arrays the region was entered with.
-/
import proofs.«130041_j62483184222219_1_alg».proof.Proof.Gen.KernelIdeal.Frame
import proofs.«130041_j62483184222219_1_alg».proof.Proof.Layer2Body
import Idealize.ShloMosaic.Lib.Pipeline.Value

set_option maxRecDepth 16384

open scoped BigOperators

noncomputable section

namespace Cert.KernelIdeal.Layer2

open Cert.KernelIdeal Cert.KernelIdeal.Gen Idealize.ShloMosaic Idealize.ShloMosaic.TcCoe Idealize.ShloMosaic.ValueIdx Cert.GraphNet
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices over the grid: the three row-blocked windows are at block (t, 0), the weights and the bias at block 0. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The body's stored entry (p, q), over blocks that hold row r of the row-indexed arrays in their row p and the other
    arrays whole, is the layer's entry (r, q) of the arrays. -/
theorem body_of_rows (A X : S16384x128.Idx → EReal) (Wr Wo : S128x64.Idx → EReal) (B : S64.Idx → EReal)
    (a x : Vec Ideal S2048x128 .f32) (wr wo : Vec Ideal S128x64 .f32) (b : Vec Ideal S64 .f32)
    (r : Fin 16384) (p : Fin 2048) (q : Fin 64)
    (ha : ∀ k : Fin 128, a (ix2 p k) = A (ix2 r k)) (hx : ∀ k : Fin 128, x (ix2 p k) = X (ix2 r k))
    (hwr : wr = Wr) (hwo : wo = Wo) (hb : b = B) :
    k2_pay1 (F := Ideal) a x wr wo b (ix2 p q) = layer (N := 16384) (K := 128) (M := 64) A X Wr Wo B (ix2 r q) := by
  subst hwr hwo hb
  rw [LayerBody.body2_at, layer_ix2]
  exact layerAt_congr_row A X a x wr wo b r p q ha hx

/-- WHAT POINT t WRITES BACK is block t of the layer of the arrays as the region finds them. -/
theorem flushed_eq (c : Dev nD) (t : Fin cfg2.N) :
    (dat2 V c).flushed 5 t = ((cfg2.win 5).blk t).view.read (Elt Ideal)
      (layer (N := 16384) (K := 128) (M := 64) (V c main_v35) (V c main_v25) (V c main_arg8) (V c main_arg10) (V c main_arg9)) := by
  show (cfg2.win 5).cut (grid2.coords t) ((dat2 V c).after 5 t) = _
  rw [after2_5]
  unfold out2_5
  rw [View.canon_unit_zero hz2]
  simp only [View.ld_unit_zero (S := S2048x128) hz2, View.ld_unit_zero (S := S128x64) hz2, View.ld_unit_zero (S := S64) hz1]
  obtain ⟨e00, e01, e10, e11, e20, e21, e30, e40, e41, e50, e51⟩ := block_indices t
  have ht : t.val < 8 := t.isLt
  funext j
  obtain ⟨p, q, rfl⟩ : ∃ (p : Fin 2048) (q : Fin 64), j = ix2 p q := ⟨j 0, j 1, @eq_ix2 2048 64 j⟩
  have hp : p.val < 2048 := p.isLt
  have hq : q.val < 64 := q.isLt
  show k2_pay1 (F := Ideal) (iblk2 V c 0 t) (iblk2 V c 1 t) (iblk2 V c 2 t) (iblk2 V c 4 t) (iblk2 V c 3 t) (ix2 p q)
    = layer (N := 16384) (K := 128) (M := 64) (V c main_v35) (V c main_v25) (V c main_arg8) (V c main_arg10) (V c main_arg9)
        (((cfg2.win 5).blk t).view.emb (ix2 p q))
  have h5 : ((cfg2.win 5).blk t).view.emb (ix2 p q)
      = ix2 (⟨t.val * 2048 + p.val, by omega⟩ : Fin 16384) q := by
    funext a; apply Fin.ext
    match a with
    | ⟨0, _⟩ => show win2_5.index t (0 : Fin 2) * 2048 + 1 * p.val = t.val * 2048 + p.val; omega
    | ⟨1, _⟩ => show win2_5.index t (1 : Fin 2) * 64 + 1 * q.val = q.val; omega
  rw [h5]
  refine body_of_rows (V c main_v35) (V c main_v25) (V c main_arg8) (V c main_arg10) (V c main_arg9)
    (iblk2 V c 0 t) (iblk2 V c 1 t) (iblk2 V c 2 t) (iblk2 V c 4 t) (iblk2 V c 3 t) _ p q ?_ ?_ ?_ ?_ ?_
  · intro k
    show V c main_v35 (((cfg2.win 0).blk t).view.emb (ix2 p k)) = _
    congr 1
    funext a; apply Fin.ext
    match a with
    | ⟨0, _⟩ => show win2_0.index t (0 : Fin 2) * 2048 + 1 * p.val = t.val * 2048 + p.val; omega
    | ⟨1, _⟩ => show win2_0.index t (1 : Fin 2) * 128 + 1 * k.val = k.val; omega
  · intro k
    show V c main_v25 (((cfg2.win 1).blk t).view.emb (ix2 p k)) = _
    congr 1
    funext a; apply Fin.ext
    match a with
    | ⟨0, _⟩ => show win2_1.index t (0 : Fin 2) * 2048 + 1 * p.val = t.val * 2048 + p.val; omega
    | ⟨1, _⟩ => show win2_1.index t (1 : Fin 2) * 128 + 1 * k.val = k.val; omega
  · funext y
    show V c main_arg8 (((cfg2.win 2).blk t).view.emb y) = V c main_arg8 y
    congr 1
    funext a; apply Fin.ext
    match a with
    | ⟨0, _⟩ => show win2_2.index t (0 : Fin 2) * 128 + 1 * (y 0).val = (y 0).val; omega
    | ⟨1, _⟩ => show win2_2.index t (1 : Fin 2) * 64 + 1 * (y 1).val = (y 1).val; omega
  · funext y
    show V c main_arg10 (((cfg2.win 4).blk t).view.emb y) = V c main_arg10 y
    congr 1
    funext a; apply Fin.ext
    match a with
    | ⟨0, _⟩ => show win2_4.index t (0 : Fin 2) * 128 + 1 * (y 0).val = (y 0).val; omega
    | ⟨1, _⟩ => show win2_4.index t (1 : Fin 2) * 64 + 1 * (y 1).val = (y 1).val; omega
  · funext y
    show V c main_arg9 (((cfg2.win 3).blk t).view.emb y) = V c main_arg9 y
    congr 1
    funext a; apply Fin.ext
    match a with
    | ⟨0, _⟩ => show win2_3.index t (0 : Fin 1) * 64 + 1 * (y 0).val = (y 0).val; omega

/-- An index of the output array is in point t's block iff each coordinate is in the block's range on its axis. -/
theorem mem_blk (t : Fin cfg2.N) (i : S16384x64.Idx) :
    i ∈ ((cfg2.win 5).blk t).view.set ↔ ∀ a : Fin 2, win2_5.index t a * S2048x64.size a ≤ (i a).val ∧ (i a).val < win2_5.index t a * S2048x64.size a + S2048x64.size a := by
  show i ∈ ((View.whole main_v36).slice (win2_5.rect t)).set ↔ _
  rw [View.set_slice_whole, Rect.mem_set_unit]
  exact Iff.rfl

/-- Every index of the output array is in the block of the point its row falls in. -/
theorem cover (i : S16384x64.Idx) : ∃ t : Fin cfg2.N, (cfg2.win 5).flush t = true ∧ i ∈ ((cfg2.win 5).blk t).view.set := by
  have hi0 : (i 0).val < 16384 := (i 0).isLt
  have hi1 : (i 1).val < 64 := (i 1).isLt
  let t : Fin cfg2.N := ⟨(i 0).val / 2048, by show (i 0).val / 2048 < 8; omega⟩
  obtain ⟨e00, e01, e10, e11, e20, e21, e30, e40, e41, e50, e51⟩ := block_indices t
  have htv : t.val = (i 0).val / 2048 := rfl
  refine ⟨t, flush2_5 t, ?_⟩
  rw [mem_blk]
  intro a
  match a with
  | ⟨0, _⟩ => show win2_5.index t (0 : Fin 2) * 2048 ≤ (i 0).val ∧ (i 0).val < win2_5.index t (0 : Fin 2) * 2048 + 2048; omega
  | ⟨1, _⟩ => show win2_5.index t (1 : Fin 2) * 64 ≤ (i 1).val ∧ (i 1).val < win2_5.index t (1 : Fin 2) * 64 + 64; omega

/-- THE ARRAY after the region: the layer of the arrays the region was entered with. -/
theorem final (c : Dev nD) :
    (dat2 V c).arrAt 5 cfg2.N
      = layer (N := 16384) (K := 128) (M := 64) (V c main_v35) (V c main_v25) (V c main_arg8) (V c main_arg10) (V c main_arg9) :=
  (dat2 V c).arrAt_eq_of_cover 5 _ (fun t _ => flushed_eq V c t) cover

end Cert.KernelIdeal.Layer2

end
-- ==== Proof.LibColumn.lean ====
/-
  Rank-2 arrays whose last axis is reduced with `keepdims`: the least and the greatest entry of each row, kept as a
  one-wide column and spread back over the row.
  * a `multi_reduction <minimumf>` over one axis, at the ideal values, as the fold of `min` over that axis's
    coordinates (the library has the `<maximumf>` form);
  * the index a reduction over the LAST axis of an [a, b] array inserts: `(r, k)` over `r`;
  * the keepdims column forms read at an index: [a] → [a, 1] by a shape cast, [a, 1] → [a, b] by a broadcast.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the last axis of an [a, b] array: over row `r`, coordinate `k` is inserted as `(r, k)`. -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.HeadRegion.lean ====
/-
  THE TWO HEADS. On a block of 4096 rows of the last features the body multiplies the block by the position weights
  (64 × 3) and by the orientation weights (64 × 4), each product accumulated from zero, so the plain sum over the 64
  contracted coordinates, and adds each bias along the rows. The first sum is stored as the positions. The second, o, is
  divided entry by entry by the column max(√(Σ_j o(p,j)²), ε) spread back over the row, and the quotient is stored as the
  orientations. The narrowing of every product operand to sixteen bits changes nothing over the extended reals. So entry
  (p, q) of what the body stores is the affine entry, or the normalised entry, of row p of the block.

  The grid cuts the 16384 rows into 4 blocks of 4096; point t reads rows 4096·t … 4096·t + 4095 of the features and all of
  both weight matrices and of both biases, and writes back rows 4096·t … 4096·t + 4095 of the positions and of the
  orientations. An entry of either head depends on one row of the features only, so what point t writes back is block t of
  the head applied to the WHOLE arrays; the 4 blocks cover every row, so each array after the region is the head of the
  arrays the region was entered with.
-/
import proofs.«130041_j62483184222219_1_alg».proof.Proof.Gen.KernelIdeal.Frame
import proofs.«130041_j62483184222219_1_alg».proof.Proof.LibPlainMatmul
import proofs.«130041_j62483184222219_1_alg».proof.Proof.LibColumn
import proofs.«130041_j62483184222219_1_alg».proof.Proof.GraphNet
import Idealize.ShloMosaic.Lib.ValueLayout
import Idealize.ShloMosaic.Lib.Pipeline.Value

set_option maxRecDepth 16384

open scoped BigOperators

noncomputable section

namespace Cert.KernelIdeal.HeadBody

open Cert.KernelIdeal Cert.KernelIdeal.Gen Idealize.ShloMosaic Idealize.ShloMosaic.ValueIdx Cert.GraphNet

/-- The stored position at (p, q): row p of the block against column q of the position weights, plus the bias at q. -/
theorem position_at (h : Vec Ideal S4096x64 .f32) (w : Vec Ideal S64x3 .f32) (b : Vec Ideal S3 .f32) (p : Fin 4096) (q : Fin 3) :
    k3_pay2 (F := Ideal) h w b (ix2 p q) = affineAt (N := 4096) (K := 64) (M := 3) h w b p q := by
  unfold k3_pay2 k3_pay1 affineAt
  rw [addf_apply]
  rw [PlainMatmul.matmul_zero_apply dot_S4096x64_S64x3_S4096x3_1_0_0_1_n_n
      dot_S4096x64_S64x3_S4096x3_1_0_0_1_n_n.wf rfl none _ _ p q]
  rw [broadcastTo_1b_ab_apply, shapeCast_a_1a_apply]
  simp only [truncf_apply, shapeCast_self]

/-- The orientation before it is normalised, at (p, q): row p of the block against column q of the orientation weights,
    plus the bias at q. It is the numerator of the stored quotient and, squared, each summand of the norm. -/
theorem affine4_at (h : Vec Ideal S4096x64 .f32) (w : Vec Ideal S64x4 .f32) (b : Vec Ideal S4 .f32) (p : Fin 4096) (q : Fin 4) :
    addf (matmul dot_S4096x64_S64x4_S4096x4_1_0_0_1_n_n none (k3_pay1 (F := Ideal) h) (truncf .bf16 w bitsLt_bf16_f32)
          (constant S4096x4 .f32 0x00000000#32))
        (broadcastTo S4096x4 (shapeCast S1x4 b shapeCasts_S4_S1x4) broadcasts_S1x4_S4096x4) (ix2 p q)
      = affineAt (N := 4096) (K := 64) (M := 4) h w b p q := by
  unfold k3_pay1 affineAt
  rw [addf_apply]
  rw [PlainMatmul.matmul_zero_apply dot_S4096x64_S64x4_S4096x4_1_0_0_1_n_n
      dot_S4096x64_S64x4_S4096x4_1_0_0_1_n_n.wf rfl none _ _ p q]
  rw [broadcastTo_1b_ab_apply, shapeCast_a_1a_apply]
  simp only [truncf_apply, shapeCast_self]

/-- The stored orientation at (p, q): the affine entry over the clamped norm of row p of the affine entries. The divisor
    at (p, q) is the one-wide column at row p; the column is the greater of ε and the square root of the row's sum of
    squares, which is the sum over the 4 coordinates j of the last axis of the squared affine entry (p, j). -/
theorem orientation_at (h : Vec Ideal S4096x64 .f32) (w : Vec Ideal S64x4 .f32) (b : Vec Ideal S4 .f32) (p : Fin 4096) (q : Fin 4) :
    k3_pay3 (F := Ideal) h w b (ix2 p q) = unitAt (N := 4096) (K := 64) (M := 4) h w b p q := by
  unfold k3_pay3 unitAt
  rw [divf_apply, affine4_at, Cert.LibColumn.broadcastTo_a1_ab_apply, maximumf_apply, broadcast_apply]
  show Ideal.div _ (max (Ideal.sqrt (shapeCast S4096x1 _ shapeCasts_S4096_S4096x1 (ix2 p (0 : Fin 1)))) _) = _
  rw [Cert.LibColumn.shapeCast_a_a1_apply]
  refine congrArg (fun z => Ideal.div (affineAt h w b p q) (max (Ideal.sqrt z) (Ideal.ofBits .f32 0x2B8CBCCC#32))) ?_
  refine (Ideal.multiReduction_add_single _ _ _ _ _ _).trans ?_
  show ∑ j : Fin 4, _ = ∑ j : Fin 4, _
  refine Finset.sum_congr rfl fun j _ => ?_
  have hl : reduces_S4096x4_S4096.lift (ix1 p) j = ix2 p j := Cert.LibColumn.lift_last_ix2 _ p j
  rw [hl, mulf_apply, affine4_at]

end Cert.KernelIdeal.HeadBody

namespace Cert.KernelIdeal.Head

open Cert.KernelIdeal Cert.KernelIdeal.Gen Idealize.ShloMosaic Idealize.ShloMosaic.TcCoe Idealize.ShloMosaic.ValueIdx Cert.GraphNet
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The block indices over the grid: the features and the two outputs are at block (t, 0), the weights and the biases at
    block 0. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Row p of point t's block of the features is row 4096·t + p of the features. -/
theorem features_row (c : Dev nD) (t : Fin cfg3.N) (p : Fin 4096) (k : Fin 64) (hr : t.val * 4096 + p.val < 16384) :
    iblk3 V c 0 t (ix2 p k) = V c main_v36 (ix2 (⟨t.val * 4096 + p.val, hr⟩ : Fin 16384) k) := by
  obtain ⟨e00, e01, e10, e11, e20, e30, e31, e40, e50, e51, e60, e61⟩ := block_indices t
  show V c main_v36 (((cfg3.win 0).blk t).view.emb (ix2 p k)) = _
  congr 1
  funext a; apply Fin.ext
  match a with
  | ⟨0, _⟩ => show win3_0.index t (0 : Fin 2) * 4096 + 1 * p.val = t.val * 4096 + p.val; omega
  | ⟨1, _⟩ => show win3_0.index t (1 : Fin 2) * 64 + 1 * k.val = k.val; omega

/-- Every point's block of the position weights is the whole matrix; -/
theorem position_weights (c : Dev nD) (t : Fin cfg3.N) : (iblk3 V c 1 t : Vec Ideal S64x3 .f32) = V c main_arg11 := by
  obtain ⟨e00, e01, e10, e11, e20, e30, e31, e40, e50, e51, e60, e61⟩ := block_indices t
  funext y
  show V c main_arg11 (((cfg3.win 1).blk t).view.emb y) = V c main_arg11 y
  congr 1
  funext a; apply Fin.ext
  match a with
  | ⟨0, _⟩ => show win3_1.index t (0 : Fin 2) * 64 + 1 * (y 0).val = (y 0).val; omega
  | ⟨1, _⟩ => show win3_1.index t (1 : Fin 2) * 3 + 1 * (y 1).val = (y 1).val; omega

/-- of the position bias the whole vector; -/
theorem position_bias (c : Dev nD) (t : Fin cfg3.N) : (iblk3 V c 2 t : Vec Ideal S3 .f32) = V c main_arg12 := by
  obtain ⟨e00, e01, e10, e11, e20, e30, e31, e40, e50, e51, e60, e61⟩ := block_indices t
  funext y
  show V c main_arg12 (((cfg3.win 2).blk t).view.emb y) = V c main_arg12 y
  congr 1
  funext a; apply Fin.ext
  match a with
  | ⟨0, _⟩ => show win3_2.index t (0 : Fin 1) * 3 + 1 * (y 0).val = (y 0).val; omega

/-- of the orientation weights the whole matrix; -/
theorem orientation_weights (c : Dev nD) (t : Fin cfg3.N) : (iblk3 V c 3 t : Vec Ideal S64x4 .f32) = V c main_arg13 := by
  obtain ⟨e00, e01, e10, e11, e20, e30, e31, e40, e50, e51, e60, e61⟩ := block_indices t
  funext y
  show V c main_arg13 (((cfg3.win 3).blk t).view.emb y) = V c main_arg13 y
  congr 1
  funext a; apply Fin.ext
  match a with
  | ⟨0, _⟩ => show win3_3.index t (0 : Fin 2) * 64 + 1 * (y 0).val = (y 0).val; omega
  | ⟨1, _⟩ => show win3_3.index t (1 : Fin 2) * 4 + 1 * (y 1).val = (y 1).val; omega

/-- of the orientation bias the whole vector. -/
theorem orientation_bias (c : Dev nD) (t : Fin cfg3.N) : (iblk3 V c 4 t : Vec Ideal S4 .f32) = V c main_arg14 := by
  obtain ⟨e00, e01, e10, e11, e20, e30, e31, e40, e50, e51, e60, e61⟩ := block_indices t
  funext y
  show V c main_arg14 (((cfg3.win 4).blk t).view.emb y) = V c main_arg14 y
  congr 1
  funext a; apply Fin.ext
  match a with
  | ⟨0, _⟩ => show win3_4.index t (0 : Fin 1) * 4 + 1 * (y 0).val = (y 0).val; omega

/-- The position body's stored entry (p, q), over a block that holds row r of the features in its row p and the weights
    and the bias whole, is the position head's entry (r, q). -/
theorem position_of_rows (H : S16384x64.Idx → EReal) (W : S64x3.Idx → EReal) (B : S3.Idx → EReal)
    (h : Vec Ideal S4096x64 .f32) (w : Vec Ideal S64x3 .f32) (b : Vec Ideal S3 .f32)
    (r : Fin 16384) (p : Fin 4096) (q : Fin 3)
    (hh : ∀ k : Fin 64, h (ix2 p k) = H (ix2 r k)) (hw : w = W) (hb : b = B) :
    k3_pay2 (F := Ideal) h w b (ix2 p q) = affine (N := 16384) (K := 64) (M := 3) H W B (ix2 r q) := by
  subst hw hb
  rw [HeadBody.position_at, affine_ix2]
  exact affineAt_congr_row H h w b r p q hh

/-- The orientation body's stored entry (p, q), likewise, is the orientation head's entry (r, q). -/
theorem orientation_of_rows (H : S16384x64.Idx → EReal) (W : S64x4.Idx → EReal) (B : S4.Idx → EReal)
    (h : Vec Ideal S4096x64 .f32) (w : Vec Ideal S64x4 .f32) (b : Vec Ideal S4 .f32)
    (r : Fin 16384) (p : Fin 4096) (q : Fin 4)
    (hh : ∀ k : Fin 64, h (ix2 p k) = H (ix2 r k)) (hw : w = W) (hb : b = B) :
    k3_pay3 (F := Ideal) h w b (ix2 p q) = unit (N := 16384) (K := 64) (M := 4) H W B (ix2 r q) := by
  subst hw hb
  rw [HeadBody.orientation_at, unit_ix2]
  exact unitAt_congr_row H h w b r p q hh

/-- WHAT POINT t WRITES BACK to the positions is block t of the position head of the arrays as the region finds them. -/
theorem flushed_position (c : Dev nD) (t : Fin cfg3.N) :
    (dat3 V c).flushed 5 t = ((cfg3.win 5).blk t).view.read (Elt Ideal)
      (affine (N := 16384) (K := 64) (M := 3) (V c main_v36) (V c main_arg11) (V c main_arg12)) := by
  show (cfg3.win 5).cut (grid3.coords t) ((dat3 V c).after 5 t) = _
  rw [after3_5]
  unfold out3_5
  rw [View.canon_unit_zero hz2]
  simp only [View.ld_unit_zero (S := S4096x64) hz2, View.ld_unit_zero (S := S64x3) hz2, View.ld_unit_zero (S := S3) hz1]
  obtain ⟨e00, e01, e10, e11, e20, e30, e31, e40, e50, e51, e60, e61⟩ := block_indices t
  have ht : t.val < 4 := t.isLt
  funext j
  obtain ⟨p, q, rfl⟩ : ∃ (p : Fin 4096) (q : Fin 3), j = ix2 p q := ⟨j 0, j 1, @eq_ix2 4096 3 j⟩
  have hp : p.val < 4096 := p.isLt
  have hq : q.val < 3 := q.isLt
  show k3_pay2 (F := Ideal) (iblk3 V c 0 t) (iblk3 V c 1 t) (iblk3 V c 2 t) (ix2 p q)
    = affine (N := 16384) (K := 64) (M := 3) (V c main_v36) (V c main_arg11) (V c main_arg12)
        (((cfg3.win 5).blk t).view.emb (ix2 p q))
  have h5 : ((cfg3.win 5).blk t).view.emb (ix2 p q)
      = ix2 (⟨t.val * 4096 + p.val, by omega⟩ : Fin 16384) q := by
    funext a; apply Fin.ext
    match a with
    | ⟨0, _⟩ => show win3_5.index t (0 : Fin 2) * 4096 + 1 * p.val = t.val * 4096 + p.val; omega
    | ⟨1, _⟩ => show win3_5.index t (1 : Fin 2) * 3 + 1 * q.val = q.val; omega
  rw [h5]
  exact position_of_rows (V c main_v36) (V c main_arg11) (V c main_arg12)
    (iblk3 V c 0 t) (iblk3 V c 1 t) (iblk3 V c 2 t) _ p q (fun k => features_row V c t p k _)
    (position_weights V c t) (position_bias V c t)

/-- WHAT POINT t WRITES BACK to the orientations is block t of the orientation head of the arrays as the region finds them. -/
theorem flushed_orientation (c : Dev nD) (t : Fin cfg3.N) :
    (dat3 V c).flushed 6 t = ((cfg3.win 6).blk t).view.read (Elt Ideal)
      (unit (N := 16384) (K := 64) (M := 4) (V c main_v36) (V c main_arg13) (V c main_arg14)) := by
  show (cfg3.win 6).cut (grid3.coords t) ((dat3 V c).after 6 t) = _
  rw [after3_6]
  unfold out3_6
  rw [View.canon_unit_zero hz2]
  simp only [View.ld_unit_zero (S := S4096x64) hz2, View.ld_unit_zero (S := S64x4) hz2, View.ld_unit_zero (S := S4) hz1]
  obtain ⟨e00, e01, e10, e11, e20, e30, e31, e40, e50, e51, e60, e61⟩ := block_indices t
  have ht : t.val < 4 := t.isLt
  funext j
  obtain ⟨p, q, rfl⟩ : ∃ (p : Fin 4096) (q : Fin 4), j = ix2 p q := ⟨j 0, j 1, @eq_ix2 4096 4 j⟩
  have hp : p.val < 4096 := p.isLt
  have hq : q.val < 4 := q.isLt
  show k3_pay3 (F := Ideal) (iblk3 V c 0 t) (iblk3 V c 3 t) (iblk3 V c 4 t) (ix2 p q)
    = unit (N := 16384) (K := 64) (M := 4) (V c main_v36) (V c main_arg13) (V c main_arg14)
        (((cfg3.win 6).blk t).view.emb (ix2 p q))
  have h6 : ((cfg3.win 6).blk t).view.emb (ix2 p q)
      = ix2 (⟨t.val * 4096 + p.val, by omega⟩ : Fin 16384) q := by
    funext a; apply Fin.ext
    match a with
    | ⟨0, _⟩ => show win3_6.index t (0 : Fin 2) * 4096 + 1 * p.val = t.val * 4096 + p.val; omega
    | ⟨1, _⟩ => show win3_6.index t (1 : Fin 2) * 4 + 1 * q.val = q.val; omega
  rw [h6]
  exact orientation_of_rows (V c main_v36) (V c main_arg13) (V c main_arg14)
    (iblk3 V c 0 t) (iblk3 V c 3 t) (iblk3 V c 4 t) _ p q (fun k => features_row V c t p k _)
    (orientation_weights V c t) (orientation_bias V c t)

/-- An index of the positions is in point t's block iff each coordinate is in the block's range on its axis. -/
theorem mem_blk_position (t : Fin cfg3.N) (i : S16384x3.Idx) :
    i ∈ ((cfg3.win 5).blk t).view.set ↔ ∀ a : Fin 2, win3_5.index t a * S4096x3.size a ≤ (i a).val ∧ (i a).val < win3_5.index t a * S4096x3.size a + S4096x3.size a := by
  show i ∈ ((View.whole main_v37_0).slice (win3_5.rect t)).set ↔ _
  rw [View.set_slice_whole, Rect.mem_set_unit]
  exact Iff.rfl

/-- Likewise for the orientations. -/
theorem mem_blk_orientation (t : Fin cfg3.N) (i : S16384x4.Idx) :
    i ∈ ((cfg3.win 6).blk t).view.set ↔ ∀ a : Fin 2, win3_6.index t a * S4096x4.size a ≤ (i a).val ∧ (i a).val < win3_6.index t a * S4096x4.size a + S4096x4.size a := by
  show i ∈ ((View.whole main_v37_1).slice (win3_6.rect t)).set ↔ _
  rw [View.set_slice_whole, Rect.mem_set_unit]
  exact Iff.rfl

/-- Every index of the positions is in the block of the point its row falls in. -/
theorem cover_position (i : S16384x3.Idx) : ∃ t : Fin cfg3.N, (cfg3.win 5).flush t = true ∧ i ∈ ((cfg3.win 5).blk t).view.set := by
  have hi0 : (i 0).val < 16384 := (i 0).isLt
  have hi1 : (i 1).val < 3 := (i 1).isLt
  let t : Fin cfg3.N := ⟨(i 0).val / 4096, by show (i 0).val / 4096 < 4; omega⟩
  obtain ⟨e00, e01, e10, e11, e20, e30, e31, e40, e50, e51, e60, e61⟩ := block_indices t
  have htv : t.val = (i 0).val / 4096 := rfl
  refine ⟨t, flush3_5 t, ?_⟩
  rw [mem_blk_position]
  intro a
  match a with
  | ⟨0, _⟩ => show win3_5.index t (0 : Fin 2) * 4096 ≤ (i 0).val ∧ (i 0).val < win3_5.index t (0 : Fin 2) * 4096 + 4096; omega
  | ⟨1, _⟩ => show win3_5.index t (1 : Fin 2) * 3 ≤ (i 1).val ∧ (i 1).val < win3_5.index t (1 : Fin 2) * 3 + 3; omega

/-- Every index of the orientations is in the block of the point its row falls in. -/
theorem cover_orientation (i : S16384x4.Idx) : ∃ t : Fin cfg3.N, (cfg3.win 6).flush t = true ∧ i ∈ ((cfg3.win 6).blk t).view.set := by
  have hi0 : (i 0).val < 16384 := (i 0).isLt
  have hi1 : (i 1).val < 4 := (i 1).isLt
  let t : Fin cfg3.N := ⟨(i 0).val / 4096, by show (i 0).val / 4096 < 4; omega⟩
  obtain ⟨e00, e01, e10, e11, e20, e30, e31, e40, e50, e51, e60, e61⟩ := block_indices t
  have htv : t.val = (i 0).val / 4096 := rfl
  refine ⟨t, flush3_6 t, ?_⟩
  rw [mem_blk_orientation]
  intro a
  match a with
  | ⟨0, _⟩ => show win3_6.index t (0 : Fin 2) * 4096 ≤ (i 0).val ∧ (i 0).val < win3_6.index t (0 : Fin 2) * 4096 + 4096; omega
  | ⟨1, _⟩ => show win3_6.index t (1 : Fin 2) * 4 ≤ (i 1).val ∧ (i 1).val < win3_6.index t (1 : Fin 2) * 4 + 4; omega

/-- THE POSITIONS after the region: the position head of the arrays the region was entered with. -/
theorem final_position (c : Dev nD) :
    (dat3 V c).arrAt 5 cfg3.N = affine (N := 16384) (K := 64) (M := 3) (V c main_v36) (V c main_arg11) (V c main_arg12) :=
  (dat3 V c).arrAt_eq_of_cover 5 _ (fun t _ => flushed_position V c t) cover_position

/-- THE ORIENTATIONS after the region: the orientation head of the arrays the region was entered with. -/
theorem final_orientation (c : Dev nD) :
    (dat3 V c).arrAt 6 cfg3.N = unit (N := 16384) (K := 64) (M := 4) (V c main_v36) (V c main_arg13) (V c main_arg14) :=
  (dat3 V c).arrAt_eq_of_cover 6 _ (fun t _ => flushed_orientation V c t) cover_orientation

end Cert.KernelIdeal.Head

end
-- ==== Proof.KernelArgsKept.lean ====
/-
  NO HOST OPERATION AND NO REGION WRITES AN ARGUMENT. At each boundary of the kernel program's run an argument array that a
  later region still reads holds its launch contents: a host stretch writes only its own results, and a region writes only
  its output array.
-/
import proofs.«130041_j62483184222219_1_alg».proof.Proof.Gen.KernelIdeal.Frame
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe
open Idealize.SL.Sem

variable {F : FTy → Type} [FloatOps F]

variable (m : (ℓ : Loc nD τ sig) → Buf (Elt F) ℓ) (ρ : Dev nD → PrngReg)

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results <;> rfl
theorem W1_arg11 (c : Dev nD) : W1 m ρ c (Proc.devRef .tc main_arg11) = m ((c : Thread nD τ).loc main_arg11) := by
  show StableHlo.after hostOps0 (W0 m ρ c) (Proc.devRef .tc main_arg11) = _
  after_results <;> rfl
theorem W1_arg12 (c : Dev nD) : W1 m ρ c (Proc.devRef .tc main_arg12) = m ((c : Thread nD τ).loc main_arg12) := by
  show StableHlo.after hostOps0 (W0 m ρ c) (Proc.devRef .tc main_arg12) = _
  after_results <;> rfl
theorem W1_arg13 (c : Dev nD) : W1 m ρ c (Proc.devRef .tc main_arg13) = m ((c : Thread nD τ).loc main_arg13) := by
  show StableHlo.after hostOps0 (W0 m ρ c) (Proc.devRef .tc main_arg13) = _
  after_results <;> rfl
theorem W1_arg14 (c : Dev nD) : W1 m ρ c (Proc.devRef .tc main_arg14) = m ((c : Thread nD τ).loc main_arg14) := by
  show StableHlo.after hostOps0 (W0 m ρ c) (Proc.devRef .tc main_arg14) = _
  after_results <;> rfl
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W3_arg5 (c : Dev nD) : W3 m ρ c (Proc.devRef .tc main_arg5) = m ((c : Thread nD τ).loc main_arg5) := by
  show StableHlo.after hostOps1 (W2 m ρ c) (Proc.devRef .tc main_arg5) = _
  after_results
  exact W2_arg5 m ρ c
theorem W3_arg6 (c : Dev nD) : W3 m ρ c (Proc.devRef .tc main_arg6) = m ((c : Thread nD τ).loc main_arg6) := by
  show StableHlo.after hostOps1 (W2 m ρ c) (Proc.devRef .tc main_arg6) = _
  after_results
  exact W2_arg6 m ρ c
theorem W3_arg7 (c : Dev nD) : W3 m ρ c (Proc.devRef .tc main_arg7) = m ((c : Thread nD τ).loc main_arg7) := by
  show StableHlo.after hostOps1 (W2 m ρ c) (Proc.devRef .tc main_arg7) = _
  after_results
  exact W2_arg7 m ρ c
theorem W3_arg8 (c : Dev nD) : W3 m ρ c (Proc.devRef .tc main_arg8) = m ((c : Thread nD τ).loc main_arg8) := by
  show StableHlo.after hostOps1 (W2 m ρ c) (Proc.devRef .tc main_arg8) = _
  after_results
  exact W2_arg8 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results
  exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results
  exact W2_arg11 m ρ c
theorem W3_arg12 (c : Dev nD) : W3 m ρ c (Proc.devRef .tc main_arg12) = m ((c : Thread nD τ).loc main_arg12) := by
  show StableHlo.after hostOps1 (W2 m ρ c) (Proc.devRef .tc main_arg12) = _
  after_results
  exact W2_arg12 m ρ c
theorem W3_arg13 (c : Dev nD) : W3 m ρ c (Proc.devRef .tc main_arg13) = m ((c : Thread nD τ).loc main_arg13) := by
  show StableHlo.after hostOps1 (W2 m ρ c) (Proc.devRef .tc main_arg13) = _
  after_results
  exact W2_arg13 m ρ c
theorem W3_arg14 (c : Dev nD) : W3 m ρ c (Proc.devRef .tc main_arg14) = m ((c : Thread nD τ).loc main_arg14) := by
  show StableHlo.after hostOps1 (W2 m ρ c) (Proc.devRef .tc main_arg14) = _
  after_results
  exact W2_arg14 m ρ c
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_arg12 (c : Dev nD) : W4 m ρ c (Proc.devRef .tc main_arg12) = m ((c : Thread nD τ).loc main_arg12) :=
  (W4_of_ne m ρ c main_arg12 (by decide)).trans (W3_arg12 m ρ c)
theorem W4_arg13 (c : Dev nD) : W4 m ρ c (Proc.devRef .tc main_arg13) = m ((c : Thread nD τ).loc main_arg13) :=
  (W4_of_ne m ρ c main_arg13 (by decide)).trans (W3_arg13 m ρ c)
theorem W4_arg14 (c : Dev nD) : W4 m ρ c (Proc.devRef .tc main_arg14) = m ((c : Thread nD τ).loc main_arg14) :=
  (W4_of_ne m ρ c main_arg14 (by decide)).trans (W3_arg14 m ρ c)
theorem W5_arg8 (c : Dev nD) : W5 m ρ c (Proc.devRef .tc main_arg8) = m ((c : Thread nD τ).loc main_arg8) := by
  show StableHlo.after hostOps2 (W4 m ρ c) (Proc.devRef .tc main_arg8) = _
  after_results
  exact W4_arg8 m ρ c
theorem W5_arg9 (c : Dev nD) : W5 m ρ c (Proc.devRef .tc main_arg9) = m ((c : Thread nD τ).loc main_arg9) := by
  show StableHlo.after hostOps2 (W4 m ρ c) (Proc.devRef .tc main_arg9) = _
  after_results
  exact W4_arg9 m ρ c
theorem W5_arg10 (c : Dev nD) : W5 m ρ c (Proc.devRef .tc main_arg10) = m ((c : Thread nD τ).loc main_arg10) := by
  show StableHlo.after hostOps2 (W4 m ρ c) (Proc.devRef .tc main_arg10) = _
  after_results
  exact W4_arg10 m ρ c
theorem W5_arg11 (c : Dev nD) : W5 m ρ c (Proc.devRef .tc main_arg11) = m ((c : Thread nD τ).loc main_arg11) := by
  show StableHlo.after hostOps2 (W4 m ρ c) (Proc.devRef .tc main_arg11) = _
  after_results
  exact W4_arg11 m ρ c
theorem W5_arg12 (c : Dev nD) : W5 m ρ c (Proc.devRef .tc main_arg12) = m ((c : Thread nD τ).loc main_arg12) := by
  show StableHlo.after hostOps2 (W4 m ρ c) (Proc.devRef .tc main_arg12) = _
  after_results
  exact W4_arg12 m ρ c
theorem W5_arg13 (c : Dev nD) : W5 m ρ c (Proc.devRef .tc main_arg13) = m ((c : Thread nD τ).loc main_arg13) := by
  show StableHlo.after hostOps2 (W4 m ρ c) (Proc.devRef .tc main_arg13) = _
  after_results
  exact W4_arg13 m ρ c
theorem W5_arg14 (c : Dev nD) : W5 m ρ c (Proc.devRef .tc main_arg14) = m ((c : Thread nD τ).loc main_arg14) := by
  show StableHlo.after hostOps2 (W4 m ρ c) (Proc.devRef .tc main_arg14) = _
  after_results
  exact W4_arg14 m ρ c
theorem W6_arg11 (c : Dev nD) : W6 m ρ c (Proc.devRef .tc main_arg11) = m ((c : Thread nD τ).loc main_arg11) :=
  (W6_of_ne m ρ c main_arg11 (by decide)).trans (W5_arg11 m ρ c)
theorem W6_arg12 (c : Dev nD) : W6 m ρ c (Proc.devRef .tc main_arg12) = m ((c : Thread nD τ).loc main_arg12) :=
  (W6_of_ne m ρ c main_arg12 (by decide)).trans (W5_arg12 m ρ c)
theorem W6_arg13 (c : Dev nD) : W6 m ρ c (Proc.devRef .tc main_arg13) = m ((c : Thread nD τ).loc main_arg13) :=
  (W6_of_ne m ρ c main_arg13 (by decide)).trans (W5_arg13 m ρ c)
theorem W6_arg14 (c : Dev nD) : W6 m ρ c (Proc.devRef .tc main_arg14) = m ((c : Thread nD τ).loc main_arg14) :=
  (W6_of_ne m ρ c main_arg14 (by decide)).trans (W5_arg14 m ρ c)

end Cert.KernelIdeal.Chain

end
-- ==== Proof.NetworkOfArgs.lean ====
/-
  THE HOST OPERATIONS BETWEEN THE KERNEL REGIONS, AS FUNCTIONS, and the network's features after each layer as functions of
  the arguments. The program cuts the edge list into its source and destination columns, wraps negative source indices
  (adding the number of nodes), gathers the source rows of the current features and adds each gathered row into the row
  of its destination, from zero: the neighbour sums a layer is fed with.
-/
import proofs.«130041_j62483184222219_1_alg».proof.Proof.Gen.KernelIdeal
import proofs.«130041_j62483184222219_1_alg».proof.Proof.GraphNet

noncomputable section

namespace Cert.KernelIdeal.Chain

open Cert.KernelIdeal Cert.KernelIdeal.Gen Idealize.ShloMosaic Cert.GraphNet

/-! ## The host operations between the regions, as functions -/

/-- The source-node column of the edge list. -/
def srcCol (e : (⟨S2x65536, .i32⟩ : BufTy).Contents (Elt Ideal)) : (⟨S65536, .i32⟩ : BufTy).Contents (Elt Ideal) :=
  shapeCast S65536 (extractStridedSlice S1x65536 ![0, 0] e slices_S2x65536_S1x65536_0_0) shapeCasts_S1x65536_S65536

/-- The destination-node column of the edge list. -/
def dstCol (e : (⟨S2x65536, .i32⟩ : BufTy).Contents (Elt Ideal)) : (⟨S65536, .i32⟩ : BufTy).Contents (Elt Ideal) :=
  shapeCast S65536 (extractStridedSlice S1x65536 ![1, 0] e slices_S2x65536_S1x65536_1_0) shapeCasts_S1x65536_S65536

/-- A column of node indices with the negative ones wrapped by the number of nodes, as a one-wide array of start indices. -/
def wrapIdx (s : (⟨S65536, .i32⟩ : BufTy).Contents (Elt Ideal)) : (⟨S65536x1, .i32⟩ : BufTy).Contents (Elt Ideal) :=
  broadcastInDim S65536x1 ![0] bcast_S65536_S65536x1_0
    (select (cmpi .slt s (broadcastInDim S65536 ![] bcast_S_S65536 (constantI S_ 32 0#32)))
      (addi s (broadcastInDim S65536 ![] bcast_S_S65536 (constantI S_ 32 16384#32))) s)

/-- A column of node indices as a one-wide array of scatter indices. -/
def colIdx (d : (⟨S65536, .i32⟩ : BufTy).Contents (Elt Ideal)) : (⟨S65536x1, .i32⟩ : BufTy).Contents (Elt Ideal) :=
  broadcastInDim S65536x1 ![0] bcast_S65536_S65536x1_0 d

/-- The neighbour sums of 2048-wide features: the gathered source rows added into their destination rows, from zero. -/
def aggregate2048 (h : (⟨S16384x2048, .f32⟩ : BufTy).Contents (Elt Ideal)) (gi si : (⟨S65536x1, .i32⟩ : BufTy).Contents (Elt Ideal)) : (⟨S16384x2048, .f32⟩ : BufTy).Contents (Elt Ideal) :=
  Host.scatterAdd (F := Ideal) scatter_S16384x2048_S65536x1_S65536x2048_1_0_0_1
    (broadcastInDim S16384x2048 ![] bcast_S_S16384x2048 (constant (F := Ideal) S_ .f32 0x00000000#32)) si
    (Host.gather gather_S16384x2048_S65536x1_S65536x2048_1_0_n_n_0_1_12048 h gi)

/-- The neighbour sums of 256-wide features. -/
def aggregate256 (h : (⟨S16384x256, .f32⟩ : BufTy).Contents (Elt Ideal)) (gi si : (⟨S65536x1, .i32⟩ : BufTy).Contents (Elt Ideal)) : (⟨S16384x256, .f32⟩ : BufTy).Contents (Elt Ideal) :=
  Host.scatterAdd (F := Ideal) scatter_S16384x256_S65536x1_S65536x256_1_0_0_1
    (broadcastInDim S16384x256 ![] bcast_S_S16384x256 (constant (F := Ideal) S_ .f32 0x00000000#32)) si
    (Host.gather gather_S16384x256_S65536x1_S65536x256_1_0_n_n_0_1_1256 h gi)

/-- The neighbour sums of 128-wide features. -/
def aggregate128 (h : (⟨S16384x128, .f32⟩ : BufTy).Contents (Elt Ideal)) (gi si : (⟨S65536x1, .i32⟩ : BufTy).Contents (Elt Ideal)) : (⟨S16384x128, .f32⟩ : BufTy).Contents (Elt Ideal) :=
  Host.scatterAdd (F := Ideal) scatter_S16384x128_S65536x1_S65536x128_1_0_0_1
    (broadcastInDim S16384x128 ![] bcast_S_S16384x128 (constant (F := Ideal) S_ .f32 0x00000000#32)) si
    (Host.gather gather_S16384x128_S65536x1_S65536x128_1_0_n_n_0_1_1128 h gi)

/-! ## The features after each layer, as functions of the arguments -/

/-- The features after the first layer. -/
def feat1 (x0 : (⟨S16384x2048, .f32⟩ : BufTy).Contents (Elt Ideal)) (x1 : (⟨S2x65536, .i32⟩ : BufTy).Contents (Elt Ideal)) (x2 : (⟨S2048x256, .f32⟩ : BufTy).Contents (Elt Ideal)) (x3 : (⟨S256, .f32⟩ : BufTy).Contents (Elt Ideal)) (x4 : (⟨S2048x256, .f32⟩ : BufTy).Contents (Elt Ideal)) :
    (⟨S16384x256, .f32⟩ : BufTy).Contents (Elt Ideal) :=
  layer (N := 16384) (K := 2048) (M := 256) (aggregate2048 x0 (wrapIdx (srcCol x1)) (colIdx (dstCol x1))) x0 x2 x4 x3

/-- The features after the second layer, from the first layer's. -/
def feat2 (f1 : (⟨S16384x256, .f32⟩ : BufTy).Contents (Elt Ideal)) (x1 : (⟨S2x65536, .i32⟩ : BufTy).Contents (Elt Ideal)) (x5 : (⟨S256x128, .f32⟩ : BufTy).Contents (Elt Ideal)) (x6 : (⟨S128, .f32⟩ : BufTy).Contents (Elt Ideal)) (x7 : (⟨S256x128, .f32⟩ : BufTy).Contents (Elt Ideal)) :
    (⟨S16384x128, .f32⟩ : BufTy).Contents (Elt Ideal) :=
  layer (N := 16384) (K := 256) (M := 128) (aggregate256 f1 (wrapIdx (srcCol x1)) (colIdx (dstCol x1))) f1 x5 x7 x6

/-- The features after the third layer, from the second layer's. -/
def feat3 (f2 : (⟨S16384x128, .f32⟩ : BufTy).Contents (Elt Ideal)) (x1 : (⟨S2x65536, .i32⟩ : BufTy).Contents (Elt Ideal)) (x8 : (⟨S128x64, .f32⟩ : BufTy).Contents (Elt Ideal)) (x9 : (⟨S64, .f32⟩ : BufTy).Contents (Elt Ideal)) (x10 : (⟨S128x64, .f32⟩ : BufTy).Contents (Elt Ideal)) :
    (⟨S16384x64, .f32⟩ : BufTy).Contents (Elt Ideal) :=
  layer (N := 16384) (K := 128) (M := 64) (aggregate128 f2 (wrapIdx (srcCol x1)) (colIdx (dstCol x1))) f2 x8 x10 x9

end Cert.KernelIdeal.Chain

end
-- ==== Proof.KernelChain.lean ====
/-
  THE KERNEL PROGRAM'S VALUES, BOUNDARY BY BOUNDARY. Between the four kernel regions the program runs host operations: it
  cuts the edge list into its source and destination columns, wraps negative source indices (adding the number of nodes),
  gathers the source rows of the current features and adds each gathered row into the row of its destination, from zero.
  Each region then leaves the layer (or the two heads) of the arrays it was entered with. Read back from the last
  boundary to the launch, the two results are the heads of three nested layers of the arguments, each layer fed the
  aggregation of the features before it; no host operation and no region changes an argument, or an index column once made.
-/
import proofs.«130041_j62483184222219_1_alg».proof.Proof.Gen.KernelIdeal.Frame
import proofs.«130041_j62483184222219_1_alg».proof.Proof.Layer0Array
import proofs.«130041_j62483184222219_1_alg».proof.Proof.Layer1Array
import proofs.«130041_j62483184222219_1_alg».proof.Proof.Layer2Array
import proofs.«130041_j62483184222219_1_alg».proof.Proof.HeadRegion
import proofs.«130041_j62483184222219_1_alg».proof.Proof.KernelArgsKept
import proofs.«130041_j62483184222219_1_alg».proof.Proof.NetworkOfArgs
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Cert.GraphNet
open Idealize.SL.Sem

variable (m : (ℓ : Loc nD τ sig) → Buf (Elt Ideal) ℓ) (ρ : Dev nD → PrngReg)

/-! ## The index columns: made before the first region, read before the second and the third -/

theorem W1_src (c : Dev nD) : W1 m ρ c (Proc.devRef .tc main_v1) = srcCol (m ((c : Thread nD τ).loc main_arg1)) := by
  show StableHlo.after hostOps0 (W0 m ρ c) (Proc.devRef .tc main_v1) = _
  after_results <;> rfl
theorem W1_dst (c : Dev nD) : W1 m ρ c (Proc.devRef .tc main_v3) = dstCol (m ((c : Thread nD τ).loc main_arg1)) := by
  show StableHlo.after hostOps0 (W0 m ρ c) (Proc.devRef .tc main_v3) = _
  after_results <;> rfl
theorem W2_src (c : Dev nD) : W2 m ρ c (Proc.devRef .tc main_v1) = srcCol (m ((c : Thread nD τ).loc main_arg1)) :=
  (W2_of_ne m ρ c main_v1 (by decide)).trans (W1_src m ρ c)
theorem W2_dst (c : Dev nD) : W2 m ρ c (Proc.devRef .tc main_v3) = dstCol (m ((c : Thread nD τ).loc main_arg1)) :=
  (W2_of_ne m ρ c main_v3 (by decide)).trans (W1_dst m ρ c)
theorem W3_src (c : Dev nD) : W3 m ρ c (Proc.devRef .tc main_v1) = srcCol (m ((c : Thread nD τ).loc main_arg1)) := by
  show StableHlo.after hostOps1 (W2 m ρ c) (Proc.devRef .tc main_v1) = _
  after_results
  exact W2_src m ρ c
theorem W3_dst (c : Dev nD) : W3 m ρ c (Proc.devRef .tc main_v3) = dstCol (m ((c : Thread nD τ).loc main_arg1)) := by
  show StableHlo.after hostOps1 (W2 m ρ c) (Proc.devRef .tc main_v3) = _
  after_results
  exact W2_dst m ρ c
theorem W4_src (c : Dev nD) : W4 m ρ c (Proc.devRef .tc main_v1) = srcCol (m ((c : Thread nD τ).loc main_arg1)) :=
  (W4_of_ne m ρ c main_v1 (by decide)).trans (W3_src m ρ c)
theorem W4_dst (c : Dev nD) : W4 m ρ c (Proc.devRef .tc main_v3) = dstCol (m ((c : Thread nD τ).loc main_arg1)) :=
  (W4_of_ne m ρ c main_v3 (by decide)).trans (W3_dst m ρ c)

/-! ## The first layer -/

theorem W1_agg (c : Dev nD) : W1 m ρ c (Proc.devRef .tc main_v13)
    = aggregate2048 (m ((c : Thread nD τ).loc main_arg0)) (wrapIdx (srcCol (m ((c : Thread nD τ).loc main_arg1)))) (colIdx (dstCol (m ((c : Thread nD τ).loc main_arg1)))) := by
  show StableHlo.after hostOps0 (W0 m ρ c) (Proc.devRef .tc main_v13) = _
  after_results <;> rfl

theorem W2_feat (c : Dev nD) : W2 m ρ c (Proc.devRef .tc main_v14)
    = feat1 (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 5).trans (Layer0.final (V1 m ρ) c)).trans ?_
  show layer (N := 16384) (K := 2048) (M := 256) (W1 m ρ c (Proc.devRef .tc main_v13)) (W1 m ρ c (Proc.devRef .tc main_arg0))
    (W1 m ρ c (Proc.devRef .tc main_arg2)) (W1 m ρ c (Proc.devRef .tc main_arg4)) (W1 m ρ c (Proc.devRef .tc main_arg3)) = _
  rw [W1_agg, W1_arg0, W1_arg2, W1_arg4, W1_arg3]
  rfl

theorem W3_feat (c : Dev nD) : W3 m ρ c (Proc.devRef .tc main_v14)
    = feat1 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v14) = _
  after_results
  exact W2_feat m ρ c

/-! ## The second layer -/

theorem W3_agg (c : Dev nD) : W3 m ρ c (Proc.devRef .tc main_v24)
    = aggregate256 (W2 m ρ c (Proc.devRef .tc main_v14)) (wrapIdx (W2 m ρ c (Proc.devRef .tc main_v1))) (colIdx (W2 m ρ c (Proc.devRef .tc main_v3))) := by
  show StableHlo.after hostOps1 (W2 m ρ c) (Proc.devRef .tc main_v24) = _
  after_results <;> rfl

theorem W4_feat (c : Dev nD) : W4 m ρ c (Proc.devRef .tc main_v25)
    = feat2 (feat1 (m ((c : Thread nD τ).loc main_arg0)) (m ((c : Thread nD τ).loc main_arg1)) (m ((c : Thread nD τ).loc main_arg2)) (m ((c : Thread nD τ).loc main_arg3)) (m ((c : Thread nD τ).loc main_arg4)))
        (m ((c : Thread nD τ).loc main_arg1)) (m ((c : Thread nD τ).loc main_arg5)) (m ((c : Thread nD τ).loc main_arg6)) (m ((c : Thread nD τ).loc main_arg7)) := by
  refine ((W4_arr m ρ c 5).trans (Layer1.final (V3 m ρ) c)).trans ?_
  show layer (N := 16384) (K := 256) (M := 128) (W3 m ρ c (Proc.devRef .tc main_v24)) (W3 m ρ c (Proc.devRef .tc main_v14))
    (W3 m ρ c (Proc.devRef .tc main_arg5)) (W3 m ρ c (Proc.devRef .tc main_arg7)) (W3 m ρ c (Proc.devRef .tc main_arg6)) = _
  rw [W3_agg, W3_feat, W2_feat, W2_src, W2_dst, W3_arg5, W3_arg7, W3_arg6]
  rfl

theorem W5_feat (c : Dev nD) : W5 m ρ c (Proc.devRef .tc main_v25)
    = feat2 (feat1 (m ((c : Thread nD τ).loc main_arg0)) (m ((c : Thread nD τ).loc main_arg1)) (m ((c : Thread nD τ).loc main_arg2)) (m ((c : Thread nD τ).loc main_arg3)) (m ((c : Thread nD τ).loc main_arg4)))
        (m ((c : Thread nD τ).loc main_arg1)) (m ((c : Thread nD τ).loc main_arg5)) (m ((c : Thread nD τ).loc main_arg6)) (m ((c : Thread nD τ).loc main_arg7)) := by
  show StableHlo.after hostOps2 (W4 m ρ c) (Proc.devRef .tc main_v25) = _
  after_results
  exact W4_feat m ρ c

/-! ## The third layer -/

theorem W5_agg (c : Dev nD) : W5 m ρ c (Proc.devRef .tc main_v35)
    = aggregate128 (W4 m ρ c (Proc.devRef .tc main_v25)) (wrapIdx (W4 m ρ c (Proc.devRef .tc main_v1))) (colIdx (W4 m ρ c (Proc.devRef .tc main_v3))) := by
  show StableHlo.after hostOps2 (W4 m ρ c) (Proc.devRef .tc main_v35) = _
  after_results <;> rfl

/-- The features after the three layers, of the arguments. -/
abbrev feats (c : Dev nD) : (⟨S16384x64, .f32⟩ : BufTy).Contents (Elt Ideal) :=
  feat3 (feat2 (feat1 (m ((c : Thread nD τ).loc main_arg0)) (m ((c : Thread nD τ).loc main_arg1)) (m ((c : Thread nD τ).loc main_arg2)) (m ((c : Thread nD τ).loc main_arg3)) (m ((c : Thread nD τ).loc main_arg4)))
      (m ((c : Thread nD τ).loc main_arg1)) (m ((c : Thread nD τ).loc main_arg5)) (m ((c : Thread nD τ).loc main_arg6)) (m ((c : Thread nD τ).loc main_arg7)))
    (m ((c : Thread nD τ).loc main_arg1)) (m ((c : Thread nD τ).loc main_arg8)) (m ((c : Thread nD τ).loc main_arg9)) (m ((c : Thread nD τ).loc main_arg10))

theorem W6_feat (c : Dev nD) : W6 m ρ c (Proc.devRef .tc main_v36) = feats m c := by
  refine ((W6_arr m ρ c 5).trans (Layer2.final (V5 m ρ) c)).trans ?_
  show layer (N := 16384) (K := 128) (M := 64) (W5 m ρ c (Proc.devRef .tc main_v35)) (W5 m ρ c (Proc.devRef .tc main_v25))
    (W5 m ρ c (Proc.devRef .tc main_arg8)) (W5 m ρ c (Proc.devRef .tc main_arg10)) (W5 m ρ c (Proc.devRef .tc main_arg9)) = _
  rw [W5_agg, W5_feat, W4_feat, W4_src, W4_dst, W5_arg8, W5_arg10, W5_arg9]
  rfl

/-! ## The heads: the two results -/

/-- THE POSITION the program returns: the affine head of the three layers' features. -/
theorem position_value (c : Dev nD) : W7 m ρ c (Proc.devRef .tc main_v37_0)
    = affine (N := 16384) (K := 64) (M := 3) (feats m c) (m ((c : Thread nD τ).loc main_arg11)) (m ((c : Thread nD τ).loc main_arg12)) := by
  refine ((W7_arr m ρ c 5).trans (Head.final_position (V6 m ρ) c)).trans ?_
  show affine (N := 16384) (K := 64) (M := 3) (W6 m ρ c (Proc.devRef .tc main_v36)) (W6 m ρ c (Proc.devRef .tc main_arg11)) (W6 m ρ c (Proc.devRef .tc main_arg12)) = _
  rw [W6_feat, W6_arg11, W6_arg12]

/-- THE ORIENTATION the program returns: the normalised head of the three layers' features. -/
theorem orientation_value (c : Dev nD) : W7 m ρ c (Proc.devRef .tc main_v37_1)
    = unit (N := 16384) (K := 64) (M := 4) (feats m c) (m ((c : Thread nD τ).loc main_arg13)) (m ((c : Thread nD τ).loc main_arg14)) := by
  refine ((W7_arr m ρ c 6).trans (Head.final_orientation (V6 m ρ) c)).trans ?_
  show unit (N := 16384) (K := 64) (M := 4) (W6 m ρ c (Proc.devRef .tc main_v36)) (W6 m ρ c (Proc.devRef .tc main_arg13)) (W6 m ρ c (Proc.devRef .tc main_arg14)) = _
  rw [W6_feat, W6_arg13, W6_arg14]

end Cert.KernelIdeal.Chain

end
-- ==== Proof.ReferenceLayers.lean ====
/-
  THE REFERENCE PROGRAM'S LAYERS AND HEADS ARE THE NETWORK'S. Entry (p, q) of a graph-convolution layer of the reference is
  max((Σ_k agg(p,k)·Wrel(k,q) + b(q)) + Σ_k h(p,k)·Wroot(k,q), 0); the network's entry is
  max((Σ_k agg(p,k)·Wrel(k,q) + Σ_k h(p,k)·Wroot(k,q)) + b(q), 0): the two orders of the three summands are joined by
  commutativity of addition on the extended reals. The position head is Σ_k h(p,k)·Wp(k,q) + bp(q) as it stands. The
  orientation head divides the affine entry o(p,q) by max(√(0 + Σ_j o(p,j)·o(p,j)), ε), the sum started from the zero word.
  The neighbour sums of each layer (a gather followed by a scatter-add) are the same term on both sides and are never opened.
-/
import proofs.«130041_j62483184222219_1_alg».proof.Proof.Gen.ReferenceIdeal.Read
import proofs.«130041_j62483184222219_1_alg».proof.Proof.GraphNet

open scoped BigOperators

noncomputable section

namespace Cert.ReferenceIdeal.Layers

open Cert.ReferenceIdeal Cert.ReferenceIdeal.Read Idealize.ShloMosaic Idealize.ShloMosaic.ValueIdx Cert.GraphNet

variable (x0 : (⟨S16384x2048, .f32⟩ : BufTy).Contents (Elt Ideal)) (x1 : (⟨S2x65536, .i32⟩ : BufTy).Contents (Elt Ideal))
  (x2 : (⟨S2048x256, .f32⟩ : BufTy).Contents (Elt Ideal)) (x3 : (⟨S256, .f32⟩ : BufTy).Contents (Elt Ideal))
  (x4 : (⟨S2048x256, .f32⟩ : BufTy).Contents (Elt Ideal)) (x5 : (⟨S256x128, .f32⟩ : BufTy).Contents (Elt Ideal))
  (x6 : (⟨S128, .f32⟩ : BufTy).Contents (Elt Ideal)) (x7 : (⟨S256x128, .f32⟩ : BufTy).Contents (Elt Ideal))
  (x8 : (⟨S128x64, .f32⟩ : BufTy).Contents (Elt Ideal)) (x9 : (⟨S64, .f32⟩ : BufTy).Contents (Elt Ideal))
  (x10 : (⟨S128x64, .f32⟩ : BufTy).Contents (Elt Ideal)) (x11 : (⟨S64x3, .f32⟩ : BufTy).Contents (Elt Ideal))
  (x12 : (⟨S3, .f32⟩ : BufTy).Contents (Elt Ideal)) (x13 : (⟨S64x4, .f32⟩ : BufTy).Contents (Elt Ideal))
  (x14 : (⟨S4, .f32⟩ : BufTy).Contents (Elt Ideal))

/-- The reference's order of a layer's three summands, clamped at the zero word, is the network's entry:
    (a + b) + c = (a + c) + b, and the zero word is 0. -/
theorem layerAt_of_sums {N K M : Nat} (A H : (⟨2, ![N, K]⟩ : Shape).Idx → EReal) (Wr Wo : (⟨2, ![K, M]⟩ : Shape).Idx → EReal)
    (B : (⟨1, ![M]⟩ : Shape).Idx → EReal) (p : Fin N) (q : Fin M) :
    max (((∑ k : Fin K, A (ix2 p k) * Wr (ix2 k q)) + B (ix1 q)) + ∑ k : Fin K, H (ix2 p k) * Wo (ix2 k q))
        (Ideal.ofBits .f32 0x00000000#32) = layerAt A H Wr Wo B p q := by
  unfold layerAt
  rw [Ideal.ofBits_zero_f32, add_right_comm]

/-- The first layer: entry (p, q) reads row p of the neighbour sums and of the features, column q of the two weight matrices
    and entry q of the bias. -/
theorem layer1_eq : val_main_v20 (F := Ideal) x0 x1 x2 x3 x4
    = layer (N := 16384) (K := 2048) (M := 256) (val_main_v13 (F := Ideal) x0 x1) x0 x2 x4 x3 := by
  funext i
  obtain ⟨p, q, rfl⟩ : ∃ (p : Fin 16384) (q : Fin 256), i = ix2 p q := ⟨i 0, i 1, @eq_ix2 16384 256 i⟩
  rw [layer_ix2, ← layerAt_of_sums]
  rw [val_main_v20_apply, val_main_v19_apply, val_main_v17_apply, val_main_v14_apply, val_main_v16_apply, val_main_v15_apply,
    val_main_v18_apply, val_main_call0_v0_apply, val_main_call0_cst_apply]
  generalize val_main_v13 (F := Ideal) x0 x1 = A
  have el : ∀ k : Fin 2048, lidx_main_v14 (ix2 p q) k = ix2 p k := fun k =>
    funext fun a => Fin.ext (by match a with | ⟨0, _⟩ => rfl | ⟨1, _⟩ => rfl)
  have er : ∀ k : Fin 2048, ridx_main_v14 (ix2 p q) k = ix2 k q := fun k =>
    funext fun a => Fin.ext (by match a with | ⟨0, _⟩ => rfl | ⟨1, _⟩ => rfl)
  have el' : ∀ k : Fin 2048, lidx_main_v18 (ix2 p q) k = ix2 p k := fun k =>
    funext fun a => Fin.ext (by match a with | ⟨0, _⟩ => rfl | ⟨1, _⟩ => rfl)
  have er' : ∀ k : Fin 2048, ridx_main_v18 (ix2 p q) k = ix2 k q := fun k =>
    funext fun a => Fin.ext (by match a with | ⟨0, _⟩ => rfl | ⟨1, _⟩ => rfl)
  have eb : idx_main_v15 (idx_main_v16 (ix2 p q)) = ix1 q :=
    funext fun a => Fin.ext (by match a with | ⟨0, _⟩ => rfl)
  simp only [el, er, el', er', eb]
  rfl

/-- The second layer: entry (p, q) reads row p of the neighbour sums and of the features, column q of the two weight matrices
    and entry q of the bias. -/
theorem layer2_eq : val_main_v37 (F := Ideal) x0 x1 x2 x3 x4 x5 x6 x7
    = layer (N := 16384) (K := 256) (M := 128) (val_main_v30 (F := Ideal) x0 x1 x2 x3 x4) (val_main_v20 (F := Ideal) x0 x1 x2 x3 x4) x5 x7 x6 := by
  funext i
  obtain ⟨p, q, rfl⟩ : ∃ (p : Fin 16384) (q : Fin 128), i = ix2 p q := ⟨i 0, i 1, @eq_ix2 16384 128 i⟩
  rw [layer_ix2, ← layerAt_of_sums]
  rw [val_main_v37_apply, val_main_v36_apply, val_main_v34_apply, val_main_v31_apply, val_main_v33_apply, val_main_v32_apply,
    val_main_v35_apply, val_main_call1_v0_apply, val_main_call1_cst_apply]
  generalize val_main_v30 (F := Ideal) x0 x1 x2 x3 x4 = A
  generalize val_main_v20 (F := Ideal) x0 x1 x2 x3 x4 = H
  have el : ∀ k : Fin 256, lidx_main_v31 (ix2 p q) k = ix2 p k := fun k =>
    funext fun a => Fin.ext (by match a with | ⟨0, _⟩ => rfl | ⟨1, _⟩ => rfl)
  have er : ∀ k : Fin 256, ridx_main_v31 (ix2 p q) k = ix2 k q := fun k =>
    funext fun a => Fin.ext (by match a with | ⟨0, _⟩ => rfl | ⟨1, _⟩ => rfl)
  have el' : ∀ k : Fin 256, lidx_main_v35 (ix2 p q) k = ix2 p k := fun k =>
    funext fun a => Fin.ext (by match a with | ⟨0, _⟩ => rfl | ⟨1, _⟩ => rfl)
  have er' : ∀ k : Fin 256, ridx_main_v35 (ix2 p q) k = ix2 k q := fun k =>
    funext fun a => Fin.ext (by match a with | ⟨0, _⟩ => rfl | ⟨1, _⟩ => rfl)
  have eb : idx_main_v32 (idx_main_v33 (ix2 p q)) = ix1 q :=
    funext fun a => Fin.ext (by match a with | ⟨0, _⟩ => rfl)
  simp only [el, er, el', er', eb]
  rfl

/-- The third layer: entry (p, q) reads row p of the neighbour sums and of the features, column q of the two weight matrices
    and entry q of the bias. -/
theorem layer3_eq : val_main_v54 (F := Ideal) x0 x1 x2 x3 x4 x5 x6 x7 x8 x9 x10
    = layer (N := 16384) (K := 128) (M := 64) (val_main_v47 (F := Ideal) x0 x1 x2 x3 x4 x5 x6 x7) (val_main_v37 (F := Ideal) x0 x1 x2 x3 x4 x5 x6 x7) x8 x10 x9 := by
  funext i
  obtain ⟨p, q, rfl⟩ : ∃ (p : Fin 16384) (q : Fin 64), i = ix2 p q := ⟨i 0, i 1, @eq_ix2 16384 64 i⟩
  rw [layer_ix2, ← layerAt_of_sums]
  rw [val_main_v54_apply, val_main_v53_apply, val_main_v51_apply, val_main_v48_apply, val_main_v50_apply, val_main_v49_apply,
    val_main_v52_apply, val_main_call2_v0_apply, val_main_call2_cst_apply]
  generalize val_main_v47 (F := Ideal) x0 x1 x2 x3 x4 x5 x6 x7 = A
  generalize val_main_v37 (F := Ideal) x0 x1 x2 x3 x4 x5 x6 x7 = H
  have el : ∀ k : Fin 128, lidx_main_v48 (ix2 p q) k = ix2 p k := fun k =>
    funext fun a => Fin.ext (by match a with | ⟨0, _⟩ => rfl | ⟨1, _⟩ => rfl)
  have er : ∀ k : Fin 128, ridx_main_v48 (ix2 p q) k = ix2 k q := fun k =>
    funext fun a => Fin.ext (by match a with | ⟨0, _⟩ => rfl | ⟨1, _⟩ => rfl)
  have el' : ∀ k : Fin 128, lidx_main_v52 (ix2 p q) k = ix2 p k := fun k =>
    funext fun a => Fin.ext (by match a with | ⟨0, _⟩ => rfl | ⟨1, _⟩ => rfl)
  have er' : ∀ k : Fin 128, ridx_main_v52 (ix2 p q) k = ix2 k q := fun k =>
    funext fun a => Fin.ext (by match a with | ⟨0, _⟩ => rfl | ⟨1, _⟩ => rfl)
  have eb : idx_main_v49 (idx_main_v50 (ix2 p q)) = ix1 q :=
    funext fun a => Fin.ext (by match a with | ⟨0, _⟩ => rfl)
  simp only [el, er, el', er', eb]
  rfl

/-- The position head: entry (p, q) is row p of the last features against column q of the weights, plus entry q of the bias. -/
theorem position_eq : val_main_v58 (F := Ideal) x0 x1 x2 x3 x4 x5 x6 x7 x8 x9 x10 x11 x12
    = affine (N := 16384) (K := 64) (M := 3) (val_main_v54 (F := Ideal) x0 x1 x2 x3 x4 x5 x6 x7 x8 x9 x10) x11 x12 := by
  funext i
  obtain ⟨p, q, rfl⟩ : ∃ (p : Fin 16384) (q : Fin 3), i = ix2 p q := ⟨i 0, i 1, @eq_ix2 16384 3 i⟩
  rw [affine_ix2]
  unfold affineAt
  rw [val_main_v58_apply, val_main_v55_apply, val_main_v57_apply, val_main_v56_apply]
  generalize val_main_v54 (F := Ideal) x0 x1 x2 x3 x4 x5 x6 x7 x8 x9 x10 = H
  have el : ∀ k : Fin 64, lidx_main_v55 (ix2 p q) k = ix2 p k := fun k =>
    funext fun a => Fin.ext (by match a with | ⟨0, _⟩ => rfl | ⟨1, _⟩ => rfl)
  have er : ∀ k : Fin 64, ridx_main_v55 (ix2 p q) k = ix2 k q := fun k =>
    funext fun a => Fin.ext (by match a with | ⟨0, _⟩ => rfl | ⟨1, _⟩ => rfl)
  have eb : idx_main_v56 (idx_main_v57 (ix2 p q)) = ix1 q :=
    funext fun a => Fin.ext (by match a with | ⟨0, _⟩ => rfl)
  simp only [el, er, eb]
  rfl

/-- The orientation head before it is normalised: the affine entry o(p, j). -/
theorem orient_at (p : Fin 16384) (j : Fin 4) : val_main_v62 (F := Ideal) x0 x1 x2 x3 x4 x5 x6 x7 x8 x9 x10 x13 x14 (ix2 p j)
    = affineAt (N := 16384) (K := 64) (M := 4) (val_main_v54 (F := Ideal) x0 x1 x2 x3 x4 x5 x6 x7 x8 x9 x10) x13 x14 p j := by
  unfold affineAt
  rw [val_main_v62_apply, val_main_v59_apply, val_main_v61_apply, val_main_v60_apply]
  generalize val_main_v54 (F := Ideal) x0 x1 x2 x3 x4 x5 x6 x7 x8 x9 x10 = H
  have el : ∀ k : Fin 64, lidx_main_v59 (ix2 p j) k = ix2 p k := fun k =>
    funext fun a => Fin.ext (by match a with | ⟨0, _⟩ => rfl | ⟨1, _⟩ => rfl)
  have er : ∀ k : Fin 64, ridx_main_v59 (ix2 p j) k = ix2 k j := fun k =>
    funext fun a => Fin.ext (by match a with | ⟨0, _⟩ => rfl | ⟨1, _⟩ => rfl)
  have eb : idx_main_v60 (idx_main_v61 (ix2 p j)) = ix1 j :=
    funext fun a => Fin.ext (by match a with | ⟨0, _⟩ => rfl)
  simp only [el, er, eb]
  rfl

/-- The orientation head: o(p, q) over the clamped norm of row p of o; the row sum of squares starts from the zero word
    and runs over the four entries (p, j) of the row, the same for every q. -/
theorem orientation_eq : val_main_v67 (F := Ideal) x0 x1 x2 x3 x4 x5 x6 x7 x8 x9 x10 x13 x14
    = unit (N := 16384) (K := 64) (M := 4) (val_main_v54 (F := Ideal) x0 x1 x2 x3 x4 x5 x6 x7 x8 x9 x10) x13 x14 := by
  funext i
  obtain ⟨p, q, rfl⟩ : ∃ (p : Fin 16384) (q : Fin 4), i = ix2 p q := ⟨i 0, i 1, @eq_ix2 16384 4 i⟩
  rw [unit_ix2]
  unfold unitAt
  rw [val_main_v67_apply, val_main_v66_apply, val_main_v65_apply, val_main_v63_apply, val_main_call3_v2_apply,
    val_main_call3_v1_apply, val_main_v64_apply, val_main_cst_7_apply, val_main_call3_cst_apply]
  have ei : ∀ k : Fin 4, idx_main_call3_v1 (idx_main_call3_v2 (idx_main_v66 (ix2 p q))) k = ix2 p k := fun k =>
    funext fun a => Fin.ext (by match a with | ⟨0, _⟩ => rfl | ⟨1, _⟩ => rfl)
  simp only [ei, val_main_call3_v0_apply, orient_at]
  simp only [Ideal.hostDivf_def, Ideal.maximumf_def, Ideal.hostUnary_sqrt_def, Ideal.mulf_def, Ideal.ofBits_def,
    Ideal.ofBits_zero_f32, zero_add]

end Cert.ReferenceIdeal.Layers

end
-- ==== Proof.ReferenceNetwork.lean ====
/-
  THE REFERENCE PROGRAM'S TWO RESULTS ARE THE HEADS OF THE SAME NESTED LAYERS OF THE ARGUMENTS. The reference makes the index
  columns and the neighbour sums of each layer by the very host operations the kernel program runs between its regions
  (slice, reshape, wrap, gather, scatter-add from zero): the two spellings are one term, so the neighbour sums are never
  opened. With each of its layers the network's layer, its results are the affine and the normalised head of the features
  after three layers, as functions of the arguments.
-/
import proofs.«130041_j62483184222219_1_alg».proof.Proof.NetworkOfArgs
import proofs.«130041_j62483184222219_1_alg».proof.Proof.ReferenceLayers

noncomputable section

namespace Cert.ReferenceIdeal.Network

open Cert.ReferenceIdeal Cert.ReferenceIdeal.Read Idealize.ShloMosaic Cert.GraphNet
open Cert.KernelIdeal.Chain (srcCol dstCol wrapIdx colIdx aggregate2048 aggregate256 aggregate128 feat1 feat2 feat3)

variable (x0 : (⟨S16384x2048, .f32⟩ : BufTy).Contents (Elt Ideal)) (x1 : (⟨S2x65536, .i32⟩ : BufTy).Contents (Elt Ideal))
  (x2 : (⟨S2048x256, .f32⟩ : BufTy).Contents (Elt Ideal)) (x3 : (⟨S256, .f32⟩ : BufTy).Contents (Elt Ideal))
  (x4 : (⟨S2048x256, .f32⟩ : BufTy).Contents (Elt Ideal)) (x5 : (⟨S256x128, .f32⟩ : BufTy).Contents (Elt Ideal))
  (x6 : (⟨S128, .f32⟩ : BufTy).Contents (Elt Ideal)) (x7 : (⟨S256x128, .f32⟩ : BufTy).Contents (Elt Ideal))
  (x8 : (⟨S128x64, .f32⟩ : BufTy).Contents (Elt Ideal)) (x9 : (⟨S64, .f32⟩ : BufTy).Contents (Elt Ideal))
  (x10 : (⟨S128x64, .f32⟩ : BufTy).Contents (Elt Ideal)) (x11 : (⟨S64x3, .f32⟩ : BufTy).Contents (Elt Ideal))
  (x12 : (⟨S3, .f32⟩ : BufTy).Contents (Elt Ideal)) (x13 : (⟨S64x4, .f32⟩ : BufTy).Contents (Elt Ideal))
  (x14 : (⟨S4, .f32⟩ : BufTy).Contents (Elt Ideal))

/-! ## The index columns -/

theorem gather_idx1 : val_main_v9 (F := Ideal) x1 = wrapIdx (srcCol x1) := rfl
theorem gather_idx2 : val_main_v26 (F := Ideal) x1 = wrapIdx (srcCol x1) := rfl
theorem gather_idx3 : val_main_v43 (F := Ideal) x1 = wrapIdx (srcCol x1) := rfl
theorem scatter_idx1 : val_main_v12 (F := Ideal) x1 = colIdx (dstCol x1) := rfl
theorem scatter_idx2 : val_main_v29 (F := Ideal) x1 = colIdx (dstCol x1) := rfl
theorem scatter_idx3 : val_main_v46 (F := Ideal) x1 = colIdx (dstCol x1) := rfl

/-! ## The neighbour sums -/

theorem agg1_eq : val_main_v13 (F := Ideal) x0 x1 = aggregate2048 x0 (wrapIdx (srcCol x1)) (colIdx (dstCol x1)) := by
  unfold val_main_v13 val_main_v10
  rw [gather_idx1, scatter_idx1]
  rfl

theorem agg2_eq : val_main_v30 (F := Ideal) x0 x1 x2 x3 x4
    = aggregate256 (val_main_v20 (F := Ideal) x0 x1 x2 x3 x4) (wrapIdx (srcCol x1)) (colIdx (dstCol x1)) := by
  unfold val_main_v30 val_main_v27
  rw [gather_idx2, scatter_idx2]
  rfl

theorem agg3_eq : val_main_v47 (F := Ideal) x0 x1 x2 x3 x4 x5 x6 x7
    = aggregate128 (val_main_v37 (F := Ideal) x0 x1 x2 x3 x4 x5 x6 x7) (wrapIdx (srcCol x1)) (colIdx (dstCol x1)) := by
  unfold val_main_v47 val_main_v44
  rw [gather_idx3, scatter_idx3]
  rfl

/-! ## The features after each layer -/

theorem feat1_eq : val_main_v20 (F := Ideal) x0 x1 x2 x3 x4 = feat1 x0 x1 x2 x3 x4 := by
  rw [Layers.layer1_eq, agg1_eq]
  rfl

theorem feat2_eq : val_main_v37 (F := Ideal) x0 x1 x2 x3 x4 x5 x6 x7 = feat2 (feat1 x0 x1 x2 x3 x4) x1 x5 x6 x7 := by
  rw [Layers.layer2_eq, agg2_eq, feat1_eq]
  rfl

theorem feat3_eq : val_main_v54 (F := Ideal) x0 x1 x2 x3 x4 x5 x6 x7 x8 x9 x10
    = feat3 (feat2 (feat1 x0 x1 x2 x3 x4) x1 x5 x6 x7) x1 x8 x9 x10 := by
  rw [Layers.layer3_eq, agg3_eq, feat2_eq]
  rfl

/-! ## The two results -/

/-- THE POSITION the reference returns. -/
theorem position_value : val_main_v58 (F := Ideal) x0 x1 x2 x3 x4 x5 x6 x7 x8 x9 x10 x11 x12
    = affine (N := 16384) (K := 64) (M := 3) (feat3 (feat2 (feat1 x0 x1 x2 x3 x4) x1 x5 x6 x7) x1 x8 x9 x10) x11 x12 := by
  rw [Layers.position_eq, feat3_eq]

/-- THE ORIENTATION the reference returns. -/
theorem orientation_value : val_main_v67 (F := Ideal) x0 x1 x2 x3 x4 x5 x6 x7 x8 x9 x10 x13 x14
    = unit (N := 16384) (K := 64) (M := 4) (feat3 (feat2 (feat1 x0 x1 x2 x3 x4) x1 x5 x6 x7) x1 x8 x9 x10) x13 x14 := by
  rw [Layers.orientation_eq, feat3_eq]

end Cert.ReferenceIdeal.Network

end
-- ==== Proof.lean ====
/-
  THE CERTIFICATE: a three-layer graph network with a position head and a normalised orientation head, computed by four
  row-blocked kernels among host gathers and scatter-adds, equals the plain array program over the extended reals.

  Each kernel region leaves, in its output array, the layer (or head) of the WHOLE arrays it was entered with: a block of rows
  of the output depends on the same rows of the row-indexed operands only, and the blocks cover the array. The host operations
  between the regions (the neighbour sums of the current features) are the same operations in both programs and are never
  opened. A layer's three summands come in another order in the two programs, joined by commutativity of addition on the
  extended reals; the narrowing of the matrix products' operands to sixteen bits is the identity there; no finiteness of the
  inputs is needed. So both programs' results are the same two functions of the arguments: the affine and the normalised
  head of the features after three nested layers.
-/
import proofs.«130041_j62483184222219_1_alg».proof.Defs
import proofs.«130041_j62483184222219_1_alg».proof.Proof.Gen.Kernel
import proofs.«130041_j62483184222219_1_alg».proof.Proof.Gen.Kernel.Skeleton
import proofs.«130041_j62483184222219_1_alg».proof.Proof.Gen.Kernel.Launch
import proofs.«130041_j62483184222219_1_alg».proof.Proof.Gen.Kernel.Points
import proofs.«130041_j62483184222219_1_alg».proof.Proof.Gen.Kernel.Frame
import proofs.«130041_j62483184222219_1_alg».proof.Proof.Gen.KernelIdeal
import proofs.«130041_j62483184222219_1_alg».proof.Proof.Gen.KernelIdeal.Skeleton
import proofs.«130041_j62483184222219_1_alg».proof.Proof.Gen.KernelIdeal.Launch
import proofs.«130041_j62483184222219_1_alg».proof.Proof.Gen.KernelIdeal.Points
import proofs.«130041_j62483184222219_1_alg».proof.Proof.Gen.KernelIdeal.Frame
import proofs.«130041_j62483184222219_1_alg».proof.Proof.Gen.ReferenceIdeal
import proofs.«130041_j62483184222219_1_alg».proof.Proof.Gen.Pre_finite_inputs
import proofs.«130041_j62483184222219_1_alg».proof.Proof.Gen.ReferenceIdeal.Run
import proofs.«130041_j62483184222219_1_alg».proof.Proof.Gen.ReferenceIdeal.Read
import proofs.«130041_j62483184222219_1_alg».proof.Proof.KernelResults
import proofs.«130041_j62483184222219_1_alg».proof.Proof.KernelChain
import proofs.«130041_j62483184222219_1_alg».proof.Proof.ReferenceNetwork
import Idealize.ShloMosaic.Adequacy
import Idealize.ShloMosaic.Init

noncomputable section

namespace Cert.Proof

open Idealize.ShloMosaic Idealize.SL.Sem Cert.GraphNet

/-- The kernel program runs and leaves its arguments as launched, at the word level … -/
theorem frame_kernel : Cert.frame_Kernel := fun m ρ _ => Cert.Kernel.Gen.frame m ρ
/-- … and over the extended reals. -/
theorem frame_kernelIdeal : Cert.frame_KernelIdeal := fun m ρ _ => Cert.KernelIdeal.Gen.frame m ρ
/-- The reference runs and leaves its arguments as launched: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the position and the orientation heads of the three layers' features of the arguments. -/
theorem algebraic : Cert.algebraic_KernelIdeal_ReferenceIdeal := by
  intro m ρ m' ρ' _ hagree
  refine ⟨fun c => affine (N := 16384) (K := 64) (M := 3) (Cert.KernelIdeal.Chain.feats m c) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => unit (N := 16384) (K := 64) (M := 4) (Cert.KernelIdeal.Chain.feats m c) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.position_value m ρ c),
        (h c).2.1.trans (Cert.KernelIdeal.Chain.orientation_value m ρ c), (h c).2.2⟩)
      (Cert.KernelIdeal.Results.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14⟩ := hagree c
      rw [Cert.ReferenceIdeal.Read.val_main_v58_eq, Cert.ReferenceIdeal.Network.position_value,
        h0, h1, h2, h3, h4, h5, h6, h7, h8, h9, h10, h11, h12]
    · obtain ⟨h0, h1, h2, h3, h4, h5, h6, h7, h8, h9, h10, h11, h12, h13, h14⟩ := hagree c
      rw [Cert.ReferenceIdeal.Read.val_main_v67_eq, Cert.ReferenceIdeal.Network.orientation_value,
        h0, h1, h2, h3, h4, h5, h6, h7, h8, h9, h10, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
